-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x64x64x16 : Shape := ⟨5, ![2, 4, 64, 64, 16]⟩
abbrev S16x64 : Shape := ⟨2, ![16, 64]⟩
abbrev S1x64x64x64 : Shape := ⟨4, ![1, 64, 64, 64]⟩
abbrev S_ : Shape := ⟨0, ![]⟩

class Facts : Prop where
  bcast_S_S2x4x64x64x16 : S_.BroadcastsInDim S2x4x64x64x16 (![] : Fin 0 → Fin S2x4x64x64x16.rank)
  reducesTo_S2x4x64x64x16_S_d0_1_2_3_4 : S2x4x64x64x16.ReducesTo [0, 1, 2, 3, 4] S_
  h_S_ : 0 < S_.numel
  bcast_S_S16x64 : S_.BroadcastsInDim S16x64 (![] : Fin 0 → Fin S16x64.rank)
  reducesTo_S16x64_S_d0_1 : S16x64.ReducesTo [0, 1] S_
  bcast_S_S1x64x64x64 : S_.BroadcastsInDim S1x64x64x64 (![] : Fin 0 → Fin S1x64x64x64.rank)
  reducesTo_S1x64x64x64_S_d0_1_2_3 : S1x64x64x64.ReducesTo [0, 1, 2, 3] S_

variable [Facts]

def fn {F : FTy → Type} [FloatOps F] (main_arg0 : FVec F S2x4x64x64x16 .f32) (main_arg1 : FVec F S16x64 .f32) (main_arg2 : FVec F S1x64x64x64 .f32) : IVec S_ 1 :=
  let main_v0 : FVec F S2x4x64x64x16 .f32 := Host.absf main_arg0
  let main_cst : FVec F S_ .f32 := constant S_ .f32 0x7F800000#32
  let main_v1 : FVec F S2x4x64x64x16 .f32 := broadcastInDim S2x4x64x64x16 ![] bcast_S_S2x4x64x64x16 main_cst
  let main_v2 : IVec S2x4x64x64x16 1 := cmpf .olt main_v0 main_v1
  let main_c : IVec S_ 1 := constantI S_ 1 1#1
  let main_v3 : IVec S_ 1 := (fun x v => Host.reduce IntOp.andi x v reducesTo_S2x4x64x64x16_S_d0_1_2_3_4 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S1x64x64x64 .f32 := Host.absf main_arg2
  let main_cst_2 : FVec F S_ .f32 := constant S_ .f32 0x7F800000#32
  let main_v10 : FVec F S1x64x64x64 .f32 := broadcastInDim S1x64x64x64 ![] bcast_S_S1x64x64x64 main_cst_2
  let main_v11 : IVec S1x64x64x64 1 := cmpf .olt main_v9 main_v10
  let main_c_3 : IVec S_ 1 := constantI S_ 1 1#1
  let main_v12 : IVec S_ 1 := (fun x v => Host.reduce IntOp.andi x v reducesTo_S1x64x64x64_S_d0_1_2_3 h_S_) main_v11 main_c_3
  let main_v13 : IVec S_ 1 := andi main_v8 main_v12
  main_v13
-- ==== Kernel.lean ====
abbrev S2x4x64x64x16 : Shape := ⟨5, ![2, 4, 64, 64, 16]⟩
abbrev S16x64 : Shape := ⟨2, ![16, 64]⟩
abbrev S1x64x64x64 : Shape := ⟨4, ![1, 64, 64, 64]⟩
abbrev S2x4x64x16x64 : Shape := ⟨5, ![2, 4, 64, 16, 64]⟩
abbrev S4096x64 : Shape := ⟨2, ![4096, 64]⟩
abbrev S2x64x64x4x64 : Shape := ⟨5, ![2, 64, 64, 4, 64]⟩
abbrev S1x4x16x16x64 : Shape := ⟨5, ![1, 4, 16, 16, 64]⟩
abbrev S1x16x64x4x64 : Shape := ⟨5, ![1, 16, 64, 4, 64]⟩
abbrev S64x64 : Shape := ⟨2, ![64, 64]⟩
abbrev S1x1x1x16x64 : Shape := ⟨5, ![1, 1, 1, 16, 64]⟩
abbrev S1x1x64x1x64 : Shape := ⟨5, ![1, 1, 64, 1, 64]⟩

abbrev nBuf : Space → Nat
  | .hbm => 6
  | .vmem => 6
  | .smem => 0
  | _ => 0

abbrev bufTy : (tb : Table) → Fin (tcTables nBuf tb) → BufTy
  | .hbm, ⟨0, _⟩ => ⟨S2x4x64x64x16, .f32⟩
  | .hbm, ⟨1, _⟩ => ⟨S16x64, .f32⟩
  | .hbm, ⟨2, _⟩ => ⟨S1x64x64x64, .f32⟩
  | .hbm, ⟨3, _⟩ => ⟨S2x4x64x16x64, .f32⟩
  | .hbm, ⟨4, _⟩ => ⟨S4096x64, .f32⟩
  | .hbm, ⟨5, _⟩ => ⟨S2x64x64x4x64, .f32⟩
  | .local _ .vmem, ⟨0, _⟩ => ⟨S1x4x16x16x64, .f32⟩
  | .local _ .vmem, ⟨1, _⟩ => ⟨S1x4x16x16x64, .f32⟩
  | .local _ .vmem, ⟨2, _⟩ => ⟨S16x64, .f32⟩
  | .local _ .vmem, ⟨3, _⟩ => ⟨S4096x64, .f32⟩
  | .local _ .vmem, ⟨4, _⟩ => ⟨S1x16x64x4x64, .f32⟩
  | .local _ .vmem, ⟨5, _⟩ => ⟨S1x16x64x4x64, .f32⟩
  | _, _ => ⟨S2x4x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 4], ![false, false]⟩

def k0_off1 (i : grid0.Coords) (c0_i32 : BitVec 32) : Fin 2 → Nat :=
  let arg1 : BitVec 32 := BitVec.ofNat 32 (i 1).val
  let c16_i32 : BitVec 32 := 16#32
  let v1 : BitVec 32 := Scalar.muli arg1 c16_i32
  let v2 : BitVec 32 := Scalar.addi v1 c0_i32
  let c64_i32 : BitVec 32 := 64#32
  let v3 : BitVec 32 := Scalar.muli v2 c64_i32
  let v4 : Index := Scalar.indexCast v3
  let c0_1 : Index := 0#32
  ![v4.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x4x16x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x64x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2x4x64x64x16_S2x4x64x16x64_0_1_2_4_3 : S2x4x64x64x16.Transposes [0, 1, 2, 4, 3] S2x4x64x16x64
  shapeCasts_S1x64x64x64_S4096x64 : S1x64x64x64.ShapeCasts S4096x64
  inb_S16x64_S16x64_0_0 : ∀ a, (![0, 0] : Fin 2 → Nat) a + S16x64.size a ≤ S16x64.size a
  h_S16x64 : 0 < S16x64.numel
  h_S64x64 : 0 < S64x64.numel
  shapeCasts_S64x64_S64x64 : S64x64.ShapeCasts S64x64
  inb_S1x4x16x16x64_S1x1x1x16x64_0_0_0_0_0 : ∀ a, (![0, 0, 0, 0, 0] : Fin 5 → Nat) a + S1x1x1x16x64.size a ≤ S1x4x16x16x64.size a
  h_S1x1x1x16x64 : 0 < S1x1x1x16x64.numel
  shapeCasts_S1x1x1x16x64_S16x64 : S1x1x1x16x64.ShapeCasts S16x64
  inb_S1x16x64x4x64_S1x1x64x1x64_0_0_0_0_0 : ∀ a, (![0, 0, 0, 0, 0] : Fin 5 → Nat) a + S1x1x64x1x64.size a ≤ S1x16x64x4x64.size a
  h_S1x1x64x1x64 : 0 < S1x1x64x1x64.numel
  shapeCasts_S1x1x64x1x64_S64x64 : S1x1x64x1x64.ShapeCasts S64x64
  shapeCasts_S64x64_S1x1x64x1x64 : S64x64.ShapeCasts S1x1x64x1x64
  inb_S1x4x16x16x64_S1x1x1x16x64_0_1_0_0_0 : ∀ a, (![0, 1, 0, 0, 0] : Fin 5 → Nat) a + S1x1x1x16x64.size a ≤ S1x4x16x16x64.size a
  inb_S1x16x64x4x64_S1x1x64x1x64_0_0_0_1_0 : ∀ a, (![0, 0, 0, 1, 0] : Fin 5 → Nat) a + S1x1x64x1x64.size a ≤ S1x16x64x4x64.size a
  inb_S1x4x16x16x64_S1x1x1x16x64_0_2_0_0_0 : ∀ a, (![0, 2, 0, 0, 0] : Fin 5 → Nat) a + S1x1x1x16x64.size a ≤ S1x4x16x16x64.size a
  inb_S1x16x64x4x64_S1x1x64x1x64_0_0_0_2_0 : ∀ a, (![0, 0, 0, 2, 0] : Fin 5 → Nat) a + S1x1x64x1x64.size a ≤ S1x16x64x4x64.size a
  inb_S1x4x16x16x64_S1x1x1x16x64_0_3_0_0_0 : ∀ a, (![0, 3, 0, 0, 0] : Fin 5 → Nat) a + S1x1x1x16x64.size a ≤ S1x4x16x16x64.size a
  inb_S1x16x64x4x64_S1x1x64x1x64_0_0_0_3_0 : ∀ a, (![0, 0, 0, 3, 0] : Fin 5 → Nat) a + S1x1x64x1x64.size a ≤ S1x16x64x4x64.size a
  inb_S1x4x16x16x64_S1x1x1x16x64_0_0_1_0_0 : ∀ a, (![0, 0, 1, 0, 0] : Fin 5 → Nat) a + S1x1x1x16x64.size a ≤ S1x4x16x16x64.size a
  inb_S1x16x64x4x64_S1x1x64x1x64_0_1_0_0_0 : ∀ a, (![0, 1, 0, 0, 0] : Fin 5 → Nat) a + S1x1x64x1x64.size a ≤ S1x16x64x4x64.size a
  inb_S1x4x16x16x64_S1x1x1x16x64_0_1_1_0_0 : ∀ a, (![0, 1, 1, 0, 0] : Fin 5 → Nat) a + S1x1x1x16x64.size a ≤ S1x4x16x16x64.size a
  inb_S1x16x64x4x64_S1x1x64x1x64_0_1_0_1_0 : ∀ a, (![0, 1, 0, 1, 0] : Fin 5 → Nat) a + S1x1x64x1x64.size a ≤ S1x16x64x4x64.size a
  inb_S1x4x16x16x64_S1x1x1x16x64_0_2_1_0_0 : ∀ a, (![0, 2, 1, 0, 0] : Fin 5 → Nat) a + S1x1x1x16x64.size a ≤ S1x4x16x16x64.size a
  inb_S1x16x64x4x64_S1x1x64x1x64_0_1_0_2_0 : ∀ a, (![0, 1, 0, 2, 0] : Fin 5 → Nat) a + S1x1x64x1x64.size a ≤ S1x16x64x4x64.size a
  inb_S1x4x16x16x64_S1x1x1x16x64_0_3_1_0_0 : ∀ a, (![0, 3, 1, 0, 0] : Fin 5 → Nat) a + S1x1x1x16x64.size a ≤ S1x4x16x16x64.size a
  inb_S1x16x64x4x64_S1x1x64x1x64_0_1_0_3_0 : ∀ a, (![0, 1, 0, 3, 0] : Fin 5 → Nat) a + S1x1x64x1x64.size a ≤ S1x16x64x4x64.size a
  inb_S1x4x16x16x64_S1x1x1x16x64_0_0_2_0_0 : ∀ a, (![0, 0, 2, 0, 0] : Fin 5 → Nat) a + S1x1x1x16x64.size a ≤ S1x4x16x16x64.size a
  inb_S1x16x64x4x64_S1x1x64x1x64_0_2_0_0_0 : ∀ a, (![0, 2, 0, 0, 0] : Fin 5 → Nat) a + S1x1x64x1x64.size a ≤ S1x16x64x4x64.size a
  inb_S1x4x16x16x64_S1x1x1x16x64_0_1_2_0_0 : ∀ a, (![0, 1, 2, 0, 0] : Fin 5 → Nat) a + S1x1x1x16x64.size a ≤ S1x4x16x16x64.size a
  inb_S1x16x64x4x64_S1x1x64x1x64_0_2_0_1_0 : ∀ a, (![0, 2, 0, 1, 0] : Fin 5 → Nat) a + S1x1x64x1x64.size a ≤ S1x16x64x4x64.size a
  inb_S1x4x16x16x64_S1x1x1x16x64_0_2_2_0_0 : ∀ a, (![0, 2, 2, 0, 0] : Fin 5 → Nat) a + S1x1x1x16x64.size a ≤ S1x4x16x16x64.size a
  inb_S1x16x64x4x64_S1x1x64x1x64_0_2_0_2_0 : ∀ a, (![0, 2, 0, 2, 0] : Fin 5 → Nat) a + S1x1x64x1x64.size a ≤ S1x16x64x4x64.size a
  inb_S1x4x16x16x64_S1x1x1x16x64_0_3_2_0_0 : ∀ a, (![0, 3, 2, 0, 0] : Fin 5 → Nat) a + S1x1x1x16x64.size a ≤ S1x4x16x16x64.size a
  inb_S1x16x64x4x64_S1x1x64x1x64_0_2_0_3_0 : ∀ a, (![0, 2, 0, 3, 0] : Fin 5 → Nat) a + S1x1x64x1x64.size a ≤ S1x16x64x4x64.size a
  inb_S1x4x16x16x64_S1x1x1x16x64_0_0_3_0_0 : ∀ a, (![0, 0, 3, 0, 0] : Fin 5 → Nat) a + S1x1x1x16x64.size a ≤ S1x4x16x16x64.size a
  inb_S1x16x64x4x64_S1x1x64x1x64_0_3_0_0_0 : ∀ a, (![0, 3, 0, 0, 0] : Fin 5 → Nat) a + S1x1x64x1x64.size a ≤ S1x16x64x4x64.size a
  inb_S1x4x16x16x64_S1x1x1x16x64_0_1_3_0_0 : ∀ a, (![0, 1, 3, 0, 0] : Fin 5 → Nat) a + S1x1x1x16x64.size a ≤ S1x4x16x16x64.size a
  inb_S1x16x64x4x64_S1x1x64x1x64_0_3_0_1_0 : ∀ a, (![0, 3, 0, 1, 0] : Fin 5 → Nat) a + S1x1x64x1x64.size a ≤ S1x16x64x4x64.size a
  inb_S1x4x16x16x64_S1x1x1x16x64_0_2_3_0_0 : ∀ a, (![0, 2, 3, 0, 0] : Fin 5 → Nat) a + S1x1x1x16x64.size a ≤ S1x4x16x16x64.size a
  inb_S1x16x64x4x64_S1x1x64x1x64_0_3_0_2_0 : ∀ a, (![0, 3, 0, 2, 0] : Fin 5 → Nat) a + S1x1x64x1x64.size a ≤ S1x16x64x4x64.size a
  inb_S1x4x16x16x64_S1x1x1x16x64_0_3_3_0_0 : ∀ a, (![0, 3, 3, 0, 0] : Fin 5 → Nat) a + S1x1x1x16x64.size a ≤ S1x4x16x16x64.size a
  inb_S1x16x64x4x64_S1x1x64x1x64_0_3_0_3_0 : ∀ a, (![0, 3, 0, 3, 0] : Fin 5 → Nat) a + S1x1x64x1x64.size a ≤ S1x16x64x4x64.size a
  inb_S1x4x16x16x64_S1x1x1x16x64_0_0_4_0_0 : ∀ a, (![0, 0, 4, 0, 0] : Fin 5 → Nat) a + S1x1x1x16x64.size a ≤ S1x4x16x16x64.size a
  inb_S1x16x64x4x64_S1x1x64x1x64_0_4_0_0_0 : ∀ a, (![0, 4, 0, 0, 0] : Fin 5 → Nat) a + S1x1x64x1x64.size a ≤ S1x16x64x4x64.size a
  inb_S1x4x16x16x64_S1x1x1x16x64_0_1_4_0_0 : ∀ a, (![0, 1, 4, 0, 0] : Fin 5 → Nat) a + S1x1x1x16x64.size a ≤ S1x4x16x16x64.size a
  inb_S1x16x64x4x64_S1x1x64x1x64_0_4_0_1_0 : ∀ a, (![0, 4, 0, 1, 0] : Fin 5 → Nat) a + S1x1x64x1x64.size a ≤ S1x16x64x4x64.size a
  inb_S1x4x16x16x64_S1x1x1x16x64_0_2_4_0_0 : ∀ a, (![0, 2, 4, 0, 0] : Fin 5 → Nat) a + S1x1x1x16x64.size a ≤ S1x4x16x16x64.size a
  inb_S1x16x64x4x64_S1x1x64x1x64_0_4_0_2_0 : ∀ a, (![0, 4, 0, 2, 0] : Fin 5 → Nat) a + S1x1x64x1x64.size a ≤ S1x16x64x4x64.size a
  inb_S1x4x16x16x64_S1x1x1x16x64_0_3_4_0_0 : ∀ a, (![0, 3, 4, 0, 0] : Fin 5 → Nat) a + S1x1x1x16x64.size a ≤ S1x4x16x16x64.size a
  inb_S1x16x64x4x64_S1x1x64x1x64_0_4_0_3_0 : ∀ a, (![0, 4, 0, 3, 0] : Fin 5 → Nat) a + S1x1x64x1x64.size a ≤ S1x16x64x4x64.size a
  inb_S1x4x16x16x64_S1x1x1x16x64_0_0_5_0_0 : ∀ a, (![0, 0, 5, 0, 0] : Fin 5 → Nat) a + S1x1x1x16x64.size a ≤ S1x4x16x16x64.size a
  inb_S1x16x64x4x64_S1x1x64x1x64_0_5_0_0_0 : ∀ a, (![0, 5, 0, 0, 0] : Fin 5 → Nat) a + S1x1x64x1x64.size a ≤ S1x16x64x4x64.size a
  inb_S1x4x16x16x64_S1x1x1x16x64_0_1_5_0_0 : ∀ a, (![0, 1, 5, 0, 0] : Fin 5 → Nat) a + S1x1x1x16x64.size a ≤ S1x4x16x16x64.size a
  inb_S1x16x64x4x64_S1x1x64x1x64_0_5_0_1_0 : ∀ a, (![0, 5, 0, 1, 0] : Fin 5 → Nat) a + S1x1x64x1x64.size a ≤ S1x16x64x4x64.size a
  inb_S1x4x16x16x64_S1x1x1x16x64_0_2_5_0_0 : ∀ a, (![0, 2, 5, 0, 0] : Fin 5 → Nat) a + S1x1x1x16x64.size a ≤ S1x4x16x16x64.size a
  inb_S1x16x64x4x64_S1x1x64x1x64_0_5_0_2_0 : ∀ a, (![0, 5, 0, 2, 0] : Fin 5 → Nat) a + S1x1x64x1x64.size a ≤ S1x16x64x4x64.size a
  inb_S1x4x16x16x64_S1x1x1x16x64_0_3_5_0_0 : ∀ a, (![0, 3, 5, 0, 0] : Fin 5 → Nat) a + S1x1x1x16x64.size a ≤ S1x4x16x16x64.size a
  inb_S1x16x64x4x64_S1x1x64x1x64_0_5_0_3_0 : ∀ a, (![0, 5, 0, 3, 0] : Fin 5 → Nat) a + S1x1x64x1x64.size a ≤ S1x16x64x4x64.size a
  inb_S1x4x16x16x64_S1x1x1x16x64_0_0_6_0_0 : ∀ a, (![0, 0, 6, 0, 0] : Fin 5 → Nat) a + S1x1x1x16x64.size a ≤ S1x4x16x16x64.size a
  inb_S1x16x64x4x64_S1x1x64x1x64_0_6_0_0_0 : ∀ a, (![0, 6, 0, 0, 0] : Fin 5 → Nat) a + S1x1x64x1x64.size a ≤ S1x16x64x4x64.size a
  inb_S1x4x16x16x64_S1x1x1x16x64_0_1_6_0_0 : ∀ a, (![0, 1, 6, 0, 0] : Fin 5 → Nat) a + S1x1x1x16x64.size a ≤ S1x4x16x16x64.size a
  inb_S1x16x64x4x64_S1x1x64x1x64_0_6_0_1_0 : ∀ a, (![0, 6, 0, 1, 0] : Fin 5 → Nat) a + S1x1x64x1x64.size a ≤ S1x16x64x4x64.size a
  inb_S1x4x16x16x64_S1x1x1x16x64_0_2_6_0_0 : ∀ a, (![0, 2, 6, 0, 0] : Fin 5 → Nat) a + S1x1x1x16x64.size a ≤ S1x4x16x16x64.size a
  inb_S1x16x64x4x64_S1x1x64x1x64_0_6_0_2_0 : ∀ a, (![0, 6, 0, 2, 0] : Fin 5 → Nat) a + S1x1x64x1x64.size a ≤ S1x16x64x4x64.size a
  inb_S1x4x16x16x64_S1x1x1x16x64_0_3_6_0_0 : ∀ a, (![0, 3, 6, 0, 0] : Fin 5 → Nat) a + S1x1x1x16x64.size a ≤ S1x4x16x16x64.size a
  inb_S1x16x64x4x64_S1x1x64x1x64_0_6_0_3_0 : ∀ a, (![0, 6, 0, 3, 0] : Fin 5 → Nat) a + S1x1x64x1x64.size a ≤ S1x16x64x4x64.size a
  inb_S1x4x16x16x64_S1x1x1x16x64_0_0_7_0_0 : ∀ a, (![0, 0, 7, 0, 0] : Fin 5 → Nat) a + S1x1x1x16x64.size a ≤ S1x4x16x16x64.size a
  inb_S1x16x64x4x64_S1x1x64x1x64_0_7_0_0_0 : ∀ a, (![0, 7, 0, 0, 0] : Fin 5 → Nat) a + S1x1x64x1x64.size a ≤ S1x16x64x4x64.size a
  inb_S1x4x16x16x64_S1x1x1x16x64_0_1_7_0_0 : ∀ a, (![0, 1, 7, 0, 0] : Fin 5 → Nat) a + S1x1x1x16x64.size a ≤ S1x4x16x16x64.size a
  inb_S1x16x64x4x64_S1x1x64x1x64_0_7_0_1_0 : ∀ a, (![0, 7, 0, 1, 0] : Fin 5 → Nat) a + S1x1x64x1x64.size a ≤ S1x16x64x4x64.size a
  inb_S1x4x16x16x64_S1x1x1x16x64_0_2_7_0_0 : ∀ a, (![0, 2, 7, 0, 0] : Fin 5 → Nat) a + S1x1x1x16x64.size a ≤ S1x4x16x16x64.size a
  inb_S1x16x64x4x64_S1x1x64x1x64_0_7_0_2_0 : ∀ a, (![0, 7, 0, 2, 0] : Fin 5 → Nat) a + S1x1x64x1x64.size a ≤ S1x16x64x4x64.size a
  inb_S1x4x16x16x64_S1x1x1x16x64_0_3_7_0_0 : ∀ a, (![0, 3, 7, 0, 0] : Fin 5 → Nat) a + S1x1x1x16x64.size a ≤ S1x4x16x16x64.size a
  inb_S1x16x64x4x64_S1x1x64x1x64_0_7_0_3_0 : ∀ a, (![0, 7, 0, 3, 0] : Fin 5 → Nat) a + S1x1x64x1x64.size a ≤ S1x16x64x4x64.size a
  inb_S1x4x16x16x64_S1x1x1x16x64_0_0_8_0_0 : ∀ a, (![0, 0, 8, 0, 0] : Fin 5 → Nat) a + S1x1x1x16x64.size a ≤ S1x4x16x16x64.size a
  inb_S1x16x64x4x64_S1x1x64x1x64_0_8_0_0_0 : ∀ a, (![0, 8, 0, 0, 0] : Fin 5 → Nat) a + S1x1x64x1x64.size a ≤ S1x16x64x4x64.size a
  inb_S1x4x16x16x64_S1x1x1x16x64_0_1_8_0_0 : ∀ a, (![0, 1, 8, 0, 0] : Fin 5 → Nat) a + S1x1x1x16x64.size a ≤ S1x4x16x16x64.size a
  inb_S1x16x64x4x64_S1x1x64x1x64_0_8_0_1_0 : ∀ a, (![0, 8, 0, 1, 0] : Fin 5 → Nat) a + S1x1x64x1x64.size a ≤ S1x16x64x4x64.size a
  inb_S1x4x16x16x64_S1x1x1x16x64_0_2_8_0_0 : ∀ a, (![0, 2, 8, 0, 0] : Fin 5 → Nat) a + S1x1x1x16x64.size a ≤ S1x4x16x16x64.size a
  inb_S1x16x64x4x64_S1x1x64x1x64_0_8_0_2_0 : ∀ a, (![0, 8, 0, 2, 0] : Fin 5 → Nat) a + S1x1x64x1x64.size a ≤ S1x16x64x4x64.size a
  inb_S1x4x16x16x64_S1x1x1x16x64_0_3_8_0_0 : ∀ a, (![0, 3, 8, 0, 0] : Fin 5 → Nat) a + S1x1x1x16x64.size a ≤ S1x4x16x16x64.size a
  inb_S1x16x64x4x64_S1x1x64x1x64_0_8_0_3_0 : ∀ a, (![0, 8, 0, 3, 0] : Fin 5 → Nat) a + S1x1x64x1x64.size a ≤ S1x16x64x4x64.size a
  inb_S1x4x16x16x64_S1x1x1x16x64_0_0_9_0_0 : ∀ a, (![0, 0, 9, 0, 0] : Fin 5 → Nat) a + S1x1x1x16x64.size a ≤ S1x4x16x16x64.size a
  inb_S1x16x64x4x64_S1x1x64x1x64_0_9_0_0_0 : ∀ a, (![0, 9, 0, 0, 0] : Fin 5 → Nat) a + S1x1x64x1x64.size a ≤ S1x16x64x4x64.size a
  inb_S1x4x16x16x64_S1x1x1x16x64_0_1_9_0_0 : ∀ a, (![0, 1, 9, 0, 0] : Fin 5 → Nat) a + S1x1x1x16x64.size a ≤ S1x4x16x16x64.size a
  inb_S1x16x64x4x64_S1x1x64x1x64_0_9_0_1_0 : ∀ a, (![0, 9, 0, 1, 0] : Fin 5 → Nat) a + S1x1x64x1x64.size a ≤ S1x16x64x4x64.size a
  inb_S1x4x16x16x64_S1x1x1x16x64_0_2_9_0_0 : ∀ a, (![0, 2, 9, 0, 0] : Fin 5 → Nat) a + S1x1x1x16x64.size a ≤ S1x4x16x16x64.size a
  inb_S1x16x64x4x64_S1x1x64x1x64_0_9_0_2_0 : ∀ a, (![0, 9, 0, 2, 0] : Fin 5 → Nat) a + S1x1x64x1x64.size a ≤ S1x16x64x4x64.size a
  inb_S1x4x16x16x64_S1x1x1x16x64_0_3_9_0_0 : ∀ a, (![0, 3, 9, 0, 0] : Fin 5 → Nat) a + S1x1x1x16x64.size a ≤ S1x4x16x16x64.size a
  inb_S1x16x64x4x64_S1x1x64x1x64_0_9_0_3_0 : ∀ a, (![0, 9, 0, 3, 0] : Fin 5 → Nat) a + S1x1x64x1x64.size a ≤ S1x16x64x4x64.size a
  inb_S1x4x16x16x64_S1x1x1x16x64_0_0_10_0_0 : ∀ a, (![0, 0, 10, 0, 0] : Fin 5 → Nat) a + S1x1x1x16x64.size a ≤ S1x4x16x16x64.size a
  inb_S1x16x64x4x64_S1x1x64x1x64_0_10_0_0_0 : ∀ a, (![0, 10, 0, 0, 0] : Fin 5 → Nat) a + S1x1x64x1x64.size a ≤ S1x16x64x4x64.size a
  inb_S1x4x16x16x64_S1x1x1x16x64_0_1_10_0_0 : ∀ a, (![0, 1, 10, 0, 0] : Fin 5 → Nat) a + S1x1x1x16x64.size a ≤ S1x4x16x16x64.size a
  inb_S1x16x64x4x64_S1x1x64x1x64_0_10_0_1_0 : ∀ a, (![0, 10, 0, 1, 0] : Fin 5 → Nat) a + S1x1x64x1x64.size a ≤ S1x16x64x4x64.size a
  inb_S1x4x16x16x64_S1x1x1x16x64_0_2_10_0_0 : ∀ a, (![0, 2, 10, 0, 0] : Fin 5 → Nat) a + S1x1x1x16x64.size a ≤ S1x4x16x16x64.size a
  inb_S1x16x64x4x64_S1x1x64x1x64_0_10_0_2_0 : ∀ a, (![0, 10, 0, 2, 0] : Fin 5 → Nat) a + S1x1x64x1x64.size a ≤ S1x16x64x4x64.size a
  inb_S1x4x16x16x64_S1x1x1x16x64_0_3_10_0_0 : ∀ a, (![0, 3, 10, 0, 0] : Fin 5 → Nat) a + S1x1x1x16x64.size a ≤ S1x4x16x16x64.size a
  inb_S1x16x64x4x64_S1x1x64x1x64_0_10_0_3_0 : ∀ a, (![0, 10, 0, 3, 0] : Fin 5 → Nat) a + S1x1x64x1x64.size a ≤ S1x16x64x4x64.size a
  inb_S1x4x16x16x64_S1x1x1x16x64_0_0_11_0_0 : ∀ a, (![0, 0, 11, 0, 0] : Fin 5 → Nat) a + S1x1x1x16x64.size a ≤ S1x4x16x16x64.size a
  inb_S1x16x64x4x64_S1x1x64x1x64_0_11_0_0_0 : ∀ a, (![0, 11, 0, 0, 0] : Fin 5 → Nat) a + S1x1x64x1x64.size a ≤ S1x16x64x4x64.size a
  inb_S1x4x16x16x64_S1x1x1x16x64_0_1_11_0_0 : ∀ a, (![0, 1, 11, 0, 0] : Fin 5 → Nat) a + S1x1x1x16x64.size a ≤ S1x4x16x16x64.size a
  inb_S1x16x64x4x64_S1x1x64x1x64_0_11_0_1_0 : ∀ a, (![0, 11, 0, 1, 0] : Fin 5 → Nat) a + S1x1x64x1x64.size a ≤ S1x16x64x4x64.size a
  inb_S1x4x16x16x64_S1x1x1x16x64_0_2_11_0_0 : ∀ a, (![0, 2, 11, 0, 0] : Fin 5 → Nat) a + S1x1x1x16x64.size a ≤ S1x4x16x16x64.size a
  inb_S1x16x64x4x64_S1x1x64x1x64_0_11_0_2_0 : ∀ a, (![0, 11, 0, 2, 0] : Fin 5 → Nat) a + S1x1x64x1x64.size a ≤ S1x16x64x4x64.size a
  inb_S1x4x16x16x64_S1x1x1x16x64_0_3_11_0_0 : ∀ a, (![0, 3, 11, 0, 0] : Fin 5 → Nat) a + S1x1x1x16x64.size a ≤ S1x4x16x16x64.size a
  inb_S1x16x64x4x64_S1x1x64x1x64_0_11_0_3_0 : ∀ a, (![0, 11, 0, 3, 0] : Fin 5 → Nat) a + S1x1x64x1x64.size a ≤ S1x16x64x4x64.size a
  inb_S1x4x16x16x64_S1x1x1x16x64_0_0_12_0_0 : ∀ a, (![0, 0, 12, 0, 0] : Fin 5 → Nat) a + S1x1x1x16x64.size a ≤ S1x4x16x16x64.size a
  inb_S1x16x64x4x64_S1x1x64x1x64_0_12_0_0_0 : ∀ a, (![0, 12, 0, 0, 0] : Fin 5 → Nat) a + S1x1x64x1x64.size a ≤ S1x16x64x4x64.size a
  inb_S1x4x16x16x64_S1x1x1x16x64_0_1_12_0_0 : ∀ a, (![0, 1, 12, 0, 0] : Fin 5 → Nat) a + S1x1x1x16x64.size a ≤ S1x4x16x16x64.size a
  inb_S1x16x64x4x64_S1x1x64x1x64_0_12_0_1_0 : ∀ a, (![0, 12, 0, 1, 0] : Fin 5 → Nat) a + S1x1x64x1x64.size a ≤ S1x16x64x4x64.size a
  inb_S1x4x16x16x64_S1x1x1x16x64_0_2_12_0_0 : ∀ a, (![0, 2, 12, 0, 0] : Fin 5 → Nat) a + S1x1x1x16x64.size a ≤ S1x4x16x16x64.size a
  inb_S1x16x64x4x64_S1x1x64x1x64_0_12_0_2_0 : ∀ a, (![0, 12, 0, 2, 0] : Fin 5 → Nat) a + S1x1x64x1x64.size a ≤ S1x16x64x4x64.size a
  inb_S1x4x16x16x64_S1x1x1x16x64_0_3_12_0_0 : ∀ a, (![0, 3, 12, 0, 0] : Fin 5 → Nat) a + S1x1x1x16x64.size a ≤ S1x4x16x16x64.size a
  inb_S1x16x64x4x64_S1x1x64x1x64_0_12_0_3_0 : ∀ a, (![0, 12, 0, 3, 0] : Fin 5 → Nat) a + S1x1x64x1x64.size a ≤ S1x16x64x4x64.size a
  inb_S1x4x16x16x64_S1x1x1x16x64_0_0_13_0_0 : ∀ a, (![0, 0, 13, 0, 0] : Fin 5 → Nat) a + S1x1x1x16x64.size a ≤ S1x4x16x16x64.size a
  inb_S1x16x64x4x64_S1x1x64x1x64_0_13_0_0_0 : ∀ a, (![0, 13, 0, 0, 0] : Fin 5 → Nat) a + S1x1x64x1x64.size a ≤ S1x16x64x4x64.size a
  inb_S1x4x16x16x64_S1x1x1x16x64_0_1_13_0_0 : ∀ a, (![0, 1, 13, 0, 0] : Fin 5 → Nat) a + S1x1x1x16x64.size a ≤ S1x4x16x16x64.size a
  inb_S1x16x64x4x64_S1x1x64x1x64_0_13_0_1_0 : ∀ a, (![0, 13, 0, 1, 0] : Fin 5 → Nat) a + S1x1x64x1x64.size a ≤ S1x16x64x4x64.size a
  inb_S1x4x16x16x64_S1x1x1x16x64_0_2_13_0_0 : ∀ a, (![0, 2, 13, 0, 0] : Fin 5 → Nat) a + S1x1x1x16x64.size a ≤ S1x4x16x16x64.size a
  inb_S1x16x64x4x64_S1x1x64x1x64_0_13_0_2_0 : ∀ a, (![0, 13, 0, 2, 0] : Fin 5 → Nat) a + S1x1x64x1x64.size a ≤ S1x16x64x4x64.size a
  inb_S1x4x16x16x64_S1x1x1x16x64_0_3_13_0_0 : ∀ a, (![0, 3, 13, 0, 0] : Fin 5 → Nat) a + S1x1x1x16x64.size a ≤ S1x4x16x16x64.size a
  inb_S1x16x64x4x64_S1x1x64x1x64_0_13_0_3_0 : ∀ a, (![0, 13, 0, 3, 0] : Fin 5 → Nat) a + S1x1x64x1x64.size a ≤ S1x16x64x4x64.size a
  inb_S1x4x16x16x64_S1x1x1x16x64_0_0_14_0_0 : ∀ a, (![0, 0, 14, 0, 0] : Fin 5 → Nat) a + S1x1x1x16x64.size a ≤ S1x4x16x16x64.size a
  inb_S1x16x64x4x64_S1x1x64x1x64_0_14_0_0_0 : ∀ a, (![0, 14, 0, 0, 0] : Fin 5 → Nat) a + S1x1x64x1x64.size a ≤ S1x16x64x4x64.size a
  inb_S1x4x16x16x64_S1x1x1x16x64_0_1_14_0_0 : ∀ a, (![0, 1, 14, 0, 0] : Fin 5 → Nat) a + S1x1x1x16x64.size a ≤ S1x4x16x16x64.size a
  inb_S1x16x64x4x64_S1x1x64x1x64_0_14_0_1_0 : ∀ a, (![0, 14, 0, 1, 0] : Fin 5 → Nat) a + S1x1x64x1x64.size a ≤ S1x16x64x4x64.size a
  inb_S1x4x16x16x64_S1x1x1x16x64_0_2_14_0_0 : ∀ a, (![0, 2, 14, 0, 0] : Fin 5 → Nat) a + S1x1x1x16x64.size a ≤ S1x4x16x16x64.size a
  inb_S1x16x64x4x64_S1x1x64x1x64_0_14_0_2_0 : ∀ a, (![0, 14, 0, 2, 0] : Fin 5 → Nat) a + S1x1x64x1x64.size a ≤ S1x16x64x4x64.size a
  inb_S1x4x16x16x64_S1x1x1x16x64_0_3_14_0_0 : ∀ a, (![0, 3, 14, 0, 0] : Fin 5 → Nat) a + S1x1x1x16x64.size a ≤ S1x4x16x16x64.size a
  inb_S1x16x64x4x64_S1x1x64x1x64_0_14_0_3_0 : ∀ a, (![0, 14, 0, 3, 0] : Fin 5 → Nat) a + S1x1x64x1x64.size a ≤ S1x16x64x4x64.size a
  inb_S1x4x16x16x64_S1x1x1x16x64_0_0_15_0_0 : ∀ a, (![0, 0, 15, 0, 0] : Fin 5 → Nat) a + S1x1x1x16x64.size a ≤ S1x4x16x16x64.size a
  inb_S1x16x64x4x64_S1x1x64x1x64_0_15_0_0_0 : ∀ a, (![0, 15, 0, 0, 0] : Fin 5 → Nat) a + S1x1x64x1x64.size a ≤ S1x16x64x4x64.size a
  inb_S1x4x16x16x64_S1x1x1x16x64_0_1_15_0_0 : ∀ a, (![0, 1, 15, 0, 0] : Fin 5 → Nat) a + S1x1x1x16x64.size a ≤ S1x4x16x16x64.size a
  inb_S1x16x64x4x64_S1x1x64x1x64_0_15_0_1_0 : ∀ a, (![0, 15, 0, 1, 0] : Fin 5 → Nat) a + S1x1x64x1x64.size a ≤ S1x16x64x4x64.size a
  inb_S1x4x16x16x64_S1x1x1x16x64_0_2_15_0_0 : ∀ a, (![0, 2, 15, 0, 0] : Fin 5 → Nat) a + S1x1x1x16x64.size a ≤ S1x4x16x16x64.size a
  inb_S1x16x64x4x64_S1x1x64x1x64_0_15_0_2_0 : ∀ a, (![0, 15, 0, 2, 0] : Fin 5 → Nat) a + S1x1x64x1x64.size a ≤ S1x16x64x4x64.size a
  inb_S1x4x16x16x64_S1x1x1x16x64_0_3_15_0_0 : ∀ a, (![0, 3, 15, 0, 0] : Fin 5 → Nat) a + S1x1x1x16x64.size a ≤ S1x4x16x16x64.size a
  inb_S1x16x64x4x64_S1x1x64x1x64_0_15_0_3_0 : ∀ a, (![0, 15, 0, 3, 0] : Fin 5 → Nat) a + S1x1x64x1x64.size a ≤ S1x16x64x4x64.size a
  dot_S16x64_S16x64_S64x64_0_0_1_1_n_n_wf : DotDims.WF S16x64 S16x64 S64x64 [0] [0] [1] [1] [] []
  hrank0 : 0 < grid0.rank
  k0_off1_inb : ∀ i : grid0.Coords, ∀ (r : Fin 16), ∀ a, (k0_off1 i (BitVec.ofNat 32 r.val)) a + S64x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x16x16x64.size a ≤ S2x4x64x16x64.size a
  hwx0_0 : ∀ i : grid0.Coords, EltTy.bits .f32 = 32 ∨ (Rect.block (s := S2x4x64x16x64) S1x4x16x16x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x64x4x64.size a ≤ S2x64x64x4x64.size a
  hwx0_3 : ∀ i : grid0.Coords, EltTy.bits .f32 = 32 ∨ (Rect.block (s := S2x64x64x4x64) S1x16x64x4x64.size (cc0_transform_3 i) (hinb0_3 i)).WholeWords (EltTy.packing .f32)

variable [Facts₀]

def dot_S16x64_S16x64_S64x64_0_0_1_1_n_n : DotDims S16x64 S16x64 S64x64 where
  lhsContracting := [0]
  rhsContracting := [0]
  lhsNonContracting := [1]
  rhsNonContracting := [1]
  lhsBatch := []
  rhsBatch := []
  wf := dot_S16x64_S16x64_S64x64_0_0_1_1_n_n_wf

abbrev win0_0 : Pipeline.Window sig grid0 :=
  Pipeline.Window.ofSpec (Memref.whole main_call0_v0) S1x4x16x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16x64x4x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4x64x64x16 : Shape := ⟨5, ![2, 4, 64, 64, 16]⟩
abbrev S16x64 : Shape := ⟨2, ![16, 64]⟩
abbrev S1x64x64x64 : Shape := ⟨4, ![1, 64, 64, 64]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S1x1x1x1x16x64 : Shape := ⟨6, ![1, 1, 1, 1, 16, 64]⟩
abbrev S2x4x64x64x16x1 : Shape := ⟨6, ![2, 4, 64, 64, 16, 1]⟩
abbrev S2x4x64x64x16x64 : Shape := ⟨6, ![2, 4, 64, 64, 16, 64]⟩
abbrev S2x4x64x64x64 : Shape := ⟨5, ![2, 4, 64, 64, 64]⟩
abbrev S1x1x64x64x64 : Shape := ⟨5, ![1, 1, 64, 64, 64]⟩
abbrev S2x64x64x4x64 : Shape := ⟨5, ![2, 64, 64, 4, 64]⟩

abbrev nBuf : Space → Nat
  | .hbm => 38
  | .vmem => 0
  | .smem => 0
  | _ => 0

abbrev bufTy : (tb : Table) → Fin (tcTables nBuf tb) → BufTy
  | .hbm, ⟨0, _⟩ => ⟨S2x4x64x64x16, .f32⟩
  | .hbm, ⟨1, _⟩ => ⟨S16x64, .f32⟩
  | .hbm, ⟨2, _⟩ => ⟨S1x64x64x64, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S1, .i32⟩
  | .hbm, ⟨13, _⟩ => ⟨S_, .i32⟩
  | .hbm, ⟨14, _⟩ => ⟨S16x1, .i32⟩
  | .hbm, ⟨15, _⟩ => ⟨S16x1, .i1⟩
  | .hbm, ⟨16, _⟩ => ⟨S1x1, .i32⟩
  | .hbm, ⟨17, _⟩ => ⟨S16x1, .i32⟩
  | .hbm, ⟨18, _⟩ => ⟨S16x1, .i1⟩
  | .hbm, ⟨19, _⟩ => ⟨S16x1, .i1⟩
  | .hbm, ⟨20, _⟩ => ⟨S_, .i1⟩
  | .hbm, ⟨21, _⟩ => ⟨S16, .i1⟩
  | .hbm, ⟨22, _⟩ => ⟨S16x64, .f32⟩
  | .hbm, ⟨23, _⟩ => ⟨S16x64, .i1⟩
  | .hbm, ⟨24, _⟩ => ⟨S_, .f32⟩
  | .hbm, ⟨25, _⟩ => ⟨S16x64, .f32⟩
  | .hbm, ⟨26, _⟩ => ⟨S16x64, .f32⟩
  | .hbm, ⟨27, _⟩ => ⟨S1x1x1x1x16x64, .f32⟩
  | .hbm, ⟨28, _⟩ => ⟨S2x4x64x64x16x1, .f32⟩
  | .hbm, ⟨29, _⟩ => ⟨S2x4x64x64x16x64, .f32⟩
  | .hbm, ⟨30, _⟩ => ⟨S2x4x64x64x16x64, .f32⟩
  | .hbm, ⟨31, _⟩ => ⟨S2x4x64x64x16x64, .f32⟩
  | .hbm, ⟨32, _⟩ => ⟨S_, .f32⟩
  | .hbm, ⟨33, _⟩ => ⟨S2x4x64x64x64, .f32⟩
  | .hbm, ⟨34, _⟩ => ⟨S1x1x64x64x64, .f32⟩
  | .hbm, ⟨35, _⟩ => ⟨S2x4x64x64x64, .f32⟩
  | .hbm, ⟨36, _⟩ => ⟨S2x4x64x64x64, .f32⟩
  | .hbm, ⟨37, _⟩ => ⟨S2x64x64x4x64, .f32⟩
  | _, _ => ⟨S2x4x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  h_S_ : 0 < S_.numel
  bcast_S16_S16x64_0 : S16.BroadcastsInDim S16x64 (![0] : Fin 1 → Fin S16x64.rank)
  bcast_S_S16x64 : S_.BroadcastsInDim S16x64 (![] : Fin 0 → Fin S16x64.rank)
  shapeCasts_S16x64_S1x1x1x1x16x64 : S16x64.ShapeCasts S1x1x1x1x16x64
  bcast_S2x4x64x64x16_S2x4x64x64x16x1_0_1_2_3_4 : S2x4x64x64x16.BroadcastsInDim S2x4x64x64x16x1 (![0, 1, 2, 3, 4] : Fin 5 → Fin S2x4x64x64x16x1.rank)
  bcast_S2x4x64x64x16x1_S2x4x64x64x16x64_0_1_2_3_4_5 : S2x4x64x64x16x1.BroadcastsInDim S2x4x64x64x16x64 (![0, 1, 2, 3, 4, 5] : Fin 6 → Fin S2x4x64x64x16x64.rank)
  bcast_S1x1x1x1x16x64_S2x4x64x64x16x64_0_1_2_3_4_5 : S1x1x1x1x16x64.BroadcastsInDim S2x4x64x64x16x64 (![0, 1, 2, 3, 4, 5] : Fin 6 → Fin S2x4x64x64x16x64.rank)
  reducesTo_S2x4x64x64x16x64_S2x4x64x64x64_d4 : S2x4x64x64x16x64.ReducesTo [4] S2x4x64x64x64
  bcast_S1x64x64x64_S1x1x64x64x64_1_2_3_4 : S1x64x64x64.BroadcastsInDim S1x1x64x64x64 (![1, 2, 3, 4] : Fin 4 → Fin S1x1x64x64x64.rank)
  bcast_S1x1x64x64x64_S2x4x64x64x64_0_1_2_3_4 : S1x1x64x64x64.BroadcastsInDim S2x4x64x64x64 (![0, 1, 2, 3, 4] : Fin 5 → Fin S2x4x64x64x64.rank)
  transposes_S2x4x64x64x64_S2x64x64x4x64_0_2_3_1_4 : S2x4x64x64x64.Transposes [0, 2, 3, 1, 4] S2x64x64x4x64
  gather_S16x64_S16x1_S16x64_1_0_n_n_0_1_164_wf : GatherDims.WF S16x64 S16x1 S16x64 [1] [0] [] [0] [] 1 ![1, 64]

variable [Facts₀]

def gather_S16x64_S16x1_S16x64_1_0_n_n_0_1_164 : GatherDims S16x64 S16x1 S16x64 where
  offsetDims := [1]
  collapsedSliceDims := [0]
  operandBatchingDims := []
  startIndicesBatchingDims := []
  startIndexMap := [0]
  indexVectorDim := 1
  sliceSizes := ![1, 64]
  wf := gather_S16x64_S16x1_S16x64_1_0_n_n_0_1_164_wf

class Facts : Prop extends Facts₀ where

variable [Facts]
-- ==== Proof.KernelTile.lean ====
/-
  One stored tile of the kernel, read at an entry.

  For a row h' of the block and a time step t' the kernel loads the 16 x 64 slab a[c, w] = x[0, t', h', c, w] of its input
  block (channels by width), the whole 16 x 64 channel table ce[c, d] and the 64 rows p[w, d] of the positional table that
  belong to the row, contracts the channel axis of the slab against the channel axis of the table into a zero
  accumulator, adds the positional rows, and stores the 64 x 64 result as a tile [1, 1, 64, 1, 64] of the output block.
  On the extended reals the tile at (0, 0, w, 0, d) is

      (sum over c of a[c, w] * ce[c, d]) + p[w, d].
-/
import proofs.«170922_g76424648065964_cont_9to1_m_590_9_alg».proof.KernelIdeal
import proofs.«170922_g76424648065964_cont_9to1_m_590_9_alg».proof.Proof.Gen.KernelIdeal
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx
open Facts₀

/-- The contraction of the slab's channel axis against the table's channel axis. -/
abbrev D : DotDims S16x64 S16x64 S64x64 := dot_S16x64_S16x64_S64x64_0_0_1_1_n_n

/-- On the slab's channel axis the left operand index is the contraction position. -/
theorem lhs_axis0 (j : S64x64.Idx) (k : D.contr.Idx) :
    (D.lhsIdx j k (0 : Fin S16x64.rank)).val = (k ⟨0, by decide⟩).val :=
  DotDims.lhsIdx_val_of_single (d := D) (cl := (0 : Fin S16x64.rank)) rfl j k

/-- On the slab's width axis the left operand index is the result's row. -/
theorem lhs_axis1 (j : S64x64.Idx) (k : D.contr.Idx) :
    (D.lhsIdx j k (1 : Fin S16x64.rank)).val = (j 0).val := by
  unfold DotDims.lhsIdx
  rw [dif_neg (show ¬ (1 : Fin S16x64.rank) ∈ D.lhsBatch from by decide),
    dif_pos (show (1 : Fin S16x64.rank) ∈ D.lhsNonContracting from by decide)]
  rfl

/-- On the table's channel axis the right operand index is the contraction position. -/
theorem rhs_axis0 (j : S64x64.Idx) (k : D.contr.Idx) :
    (D.rhsIdx j k (0 : Fin S16x64.rank)).val = (k ⟨0, by decide⟩).val :=
  DotDims.rhsIdx_val_of_single (d := D) (cr := (0 : Fin S16x64.rank)) rfl j k

/-- On the table's embedding axis the right operand index is the result's column. -/
theorem rhs_axis1 (j : S64x64.Idx) (k : D.contr.Idx) :
    (D.rhsIdx j k (1 : Fin S16x64.rank)).val = (j 1).val := by
  unfold DotDims.rhsIdx
  rw [dif_neg (show ¬ (1 : Fin S16x64.rank) ∈ D.rhsBatch from by decide),
    dif_pos (show (1 : Fin S16x64.rank) ∈ D.rhsNonContracting from by decide)]
  rfl

/-- The contraction into a zero accumulator at (w, d): the sum over the 16 channels of slab[c, w] * table[c, d]. -/
theorem contract_apply (s : FVec Ideal S16x64 .f32) (ce : FVec Ideal S16x64 .f32) (w d : Fin 64) :
    matmul D none s ce (constant S64x64 .f32 0x00000000#32) (ix2 w d) = ∑ c : Fin 16, s (ix2 c w) * ce (ix2 c d) := by
  simp only [matmul]
  rw [Ideal.matmul_constant_zero_apply]
  rw [← Equiv.sum_comp (contrEquiv1 D 16 rfl rfl).symm]
  refine Finset.sum_congr rfl fun c _ => ?_
  have hk := contrEquiv1_symm_val D 16 rfl rfl c
  congr 2
  · funext a; apply Fin.ext
    match a with
    | ⟨0, _⟩ => exact (lhs_axis0 _ _).trans hk
    | ⟨1, _⟩ => exact lhs_axis1 _ _
  · funext a; apply Fin.ext
    match a with
    | ⟨0, _⟩ => exact (rhs_axis0 _ _).trans hk
    | ⟨1, _⟩ => exact rhs_axis1 _ _

/-- One stored tile as a function of the three loaded pieces: the slab (still carrying its three unit axes), the channel
    table and the positional rows. -/
def tile {F : FTy → Type} [FloatOps F] (a : Vec F S1x1x1x16x64 .f32) (ce : Vec F S16x64 .f32) (p : Vec F S64x64 .f32) :
    FVec F S1x1x64x1x64 .f32 :=
  shapeCast S1x1x64x1x64
    (addf (matmul D none (shapeCast S16x64 a Facts₀.shapeCasts_S1x1x1x16x64_S16x64) ce (constant S64x64 .f32 0x00000000#32))
      (shapeCast S64x64 p Facts₀.shapeCasts_S64x64_S64x64))
    Facts₀.shapeCasts_S64x64_S1x1x64x1x64

/-- THE TILE AT AN ENTRY: at an index whose width coordinate is w and whose embedding coordinate is d it is the
    contraction of the slab's column w against the table's column d, plus the positional entry (w, d). -/
theorem tile_apply (a : Vec Ideal S1x1x1x16x64 .f32) (ce : Vec Ideal S16x64 .f32) (p : Vec Ideal S64x64 .f32)
    (x : S1x1x64x1x64.Idx) (w d : Fin 64) (hw : (x 2).val = w.val) (hd : (x 4).val = d.val) :
    tile (F := Ideal) a ce p x
      = (∑ c : Fin 16, a (ix5 (0 : Fin 1) (0 : Fin 1) (0 : Fin 1) c w) * ce (ix2 c d)) + p (ix2 w d) := by
  have h0 : (x 0).val < 1 := (x 0).isLt
  have h1 : (x 1).val < 1 := (x 1).isLt
  have h3 : (x 3).val < 1 := (x 3).isLt
  unfold tile
  refine (shapeCast_apply _ _ x (ix2 w d) ?_).trans ?_
  · rw [Shape.rowMajor_val_two, Shape.rowMajor_val_five]
    show w.val * 64 + d.val = ((((x 0).val * 1 + (x 1).val) * 64 + (x 2).val) * 1 + (x 3).val) * 64 + (x 4).val
    omega
  rw [addf_apply, contract_apply, shapeCast_self]
  congr 1
  refine Finset.sum_congr rfl fun c _ => ?_
  congr 1
  refine shapeCast_apply _ _ (ix2 c w) (ix5 (0 : Fin 1) (0 : Fin 1) (0 : Fin 1) c w) ?_
  rw [Shape.rowMajor_val_two, Shape.rowMajor_val_five]
  show (((0 * 1 + 0) * 1 + 0) * 16 + c.val) * 64 + w.val = c.val * 64 + w.val
  omega

end Cert.KernelIdeal.Tile

end
-- ==== Proof.KernelBlock.lean ====
/-
  What the kernel leaves in its output block at one grid point.

  A grid point (b', h') holds the input slab x0[0, t, r, c, w] (one batch entry, four time steps, sixteen rows of the
  image, channels by width), the channel table x1[c, d] and the whole positional table x2[q, d] flattened over the
  image (q = 64 * row + w). Its sixty-four stores, one per (row r, time step t), tile the output block
  [1, 16, 64, 4, 64]; together they leave, at (0, r, w, t, d),

      (sum over c of x0[0, t, r, c, w] * x1[c, d]) + x2[1024 * h' + 64 * r + w, d].
-/
import proofs.«170922_g76424648065964_cont_9to1_m_590_9_alg».proof.Proof.KernelTile
import proofs.«170922_g76424648065964_cont_9to1_m_590_9_alg».proof.Proof.Gen.KernelIdeal.Frame
import Idealize.ShloMosaic.Lib.Pipeline.Value

set_option maxRecDepth 16384

noncomputable section

namespace Cert.KernelIdeal.Block

open Cert.KernelIdeal Cert.KernelIdeal.Gen Cert.KernelIdeal.Tile
open Idealize.ShloMosaic Idealize.ShloMosaic.ValueIdx Idealize.ShloMosaic.Tactic Idealize.SL.Sem

/-- The block at the coordinates (0, r, w, t, d), for the grid row h'. -/
def blockAt (h' : Fin 4) (x0 : Vec Ideal S1x4x16x16x64 .f32) (x1 : Vec Ideal S16x64 .f32) (x2 : Vec Ideal S4096x64 .f32)
    (r : Fin 16) (w : Fin 64) (t : Fin 4) (d : Fin 64) : EReal :=
  (∑ c : Fin 16, x0 (ix5 (0 : Fin 1) t r c w) * x1 (ix2 c d))
    + x2 (ix2 (⟨1024 * h'.val + 64 * r.val + w.val, by omega⟩ : Fin 4096) d)

/-- The block, index by index. -/
def blockFn (h' : Fin 4) (x0 : Vec Ideal S1x4x16x16x64 .f32) (x1 : Vec Ideal S16x64 .f32) (x2 : Vec Ideal S4096x64 .f32) :
    S1x16x64x4x64.Idx → EReal :=
  fun y => blockAt h' x0 x1 x2 (y 1) (y 2) (y 3) (y 4)

/-- ONE STORE: the tile stored for row r and time step t, at its own index x, is the block at the index under it. -/
theorem piece_apply (i : grid0.Coords) (x0 : Vec Ideal S1x4x16x16x64 .f32) (x1 : Vec Ideal S16x64 .f32)
    (x2 : Vec Ideal S4096x64 .f32) (r t : ℕ) (hr : r < 16) (ht : t < 4)
    (inb0 : ∀ a, (![0, t, r, 0, 0] : Fin 5 → ℕ) a + S1x1x1x16x64.size a ≤ S1x4x16x16x64.size a)
    (inb1 : ∀ a, (![0, 0] : Fin 2 → ℕ) a + S16x64.size a ≤ S16x64.size a)
    (inb2 : ∀ a, (k0_off1 i (BitVec.ofNat 32 r)) a + S64x64.size a ≤ S4096x64.size a)
    (inb3 : ∀ a, (![0, r, 0, t, 0] : Fin 5 → ℕ) a + S1x1x64x1x64.size a ≤ S1x16x64x4x64.size a)
    (x : (Rect.unit (s := S1x16x64x4x64) ![0, r, 0, t, 0] S1x1x64x1x64.size inb3).shape.Idx) :
    tile (F := Ideal) (View.ld x0 (Rect.unit (s := S1x4x16x16x64) ![0, t, r, 0, 0] S1x1x1x16x64.size inb0))
        (View.ld x1 (Rect.unit (s := S16x64) ![0, 0] S16x64.size inb1))
        (View.ld x2 (Rect.unit (s := S4096x64) (k0_off1 i (BitVec.ofNat 32 r)) S64x64.size inb2)) x
      = blockFn (i 1) x0 x1 x2 ((Rect.unit (s := S1x16x64x4x64) ![0, r, 0, t, 0] S1x1x64x1x64.size inb3).emb x) := by
  have hoff : k0_off1 i (BitVec.ofNat 32 r) = ![1024 * (i 1).val + 64 * r, 0] := k0_off1_eq i ⟨r, hr⟩
  have hx2 : (x 2).val < 64 := (x 2).isLt
  have hx4 : (x 4).val < 64 := (x 4).isLt
  rw [tile_apply _ _ _ x ⟨(x 2).val, hx2⟩ ⟨(x 4).val, hx4⟩ rfl rfl]
  have hx1 : (x 1).val < 1 := (x 1).isLt
  have hx3 : (x 3).val < 1 := (x 3).isLt
  show _ = blockAt (i 1) x0 x1 x2 _ _ _ _
  unfold blockAt
  congr 1
  · refine Finset.sum_congr rfl fun c _ => ?_
    congr 1
    · show x0 _ = x0 _
      congr 1
      funext a; apply Fin.ext
      match a with
      | ⟨0, _⟩ => show 0 + 1 * 0 = 0; omega
      | ⟨1, _⟩ => show t + 1 * 0 = t + 1 * (x 3).val; omega
      | ⟨2, _⟩ => show r + 1 * 0 = r + 1 * (x 1).val; omega
      | ⟨3, _⟩ => show 0 + 1 * c.val = c.val; omega
      | ⟨4, _⟩ => show 0 + 1 * (x 2).val = 0 + 1 * (x 2).val; rfl
    · show x1 _ = x1 _
      congr 1
      funext a; apply Fin.ext
      match a with
      | ⟨0, _⟩ => show 0 + 1 * c.val = c.val; omega
      | ⟨1, _⟩ => show 0 + 1 * (x 4).val = 0 + 1 * (x 4).val; rfl
  · show x2 _ = x2 _
    congr 1
    funext a; apply Fin.ext
    match a with
    | ⟨0, _⟩ =>
      show (k0_off1 i (BitVec.ofNat 32 r)) 0 + 1 * (x 2).val = 1024 * (i 1).val + 64 * (r + 1 * (x 1).val) + (0 + 1 * (x 2).val)
      rw [hoff]
      show 1024 * (i 1).val + 64 * r + 1 * (x 2).val = _
      omega
    | ⟨1, _⟩ =>
      show (k0_off1 i (BitVec.ofNat 32 r)) 1 + 1 * (x 4).val = 0 + 1 * (x 4).val
      rw [hoff]
      rfl

/-- The slab of row r and time step t lies inside the input block. -/
theorem slab_inb (r t : ℕ) (hr : r < 16) (ht : t < 4) :
    ∀ a, (![0, t, r, 0, 0] : Fin 5 → ℕ) a + S1x1x1x16x64.size a ≤ S1x4x16x16x64.size a := fun a =>
  match a with
  | ⟨0, _⟩ => by show 0 + 1 ≤ 1; omega
  | ⟨1, _⟩ => by show t + 1 ≤ 4; omega
  | ⟨2, _⟩ => by show r + 1 ≤ 16; omega
  | ⟨3, _⟩ => by show 0 + 16 ≤ 16; omega
  | ⟨4, _⟩ => by show 0 + 64 ≤ 64; omega

/-- The tile of row r and time step t lies inside the output block. -/
theorem tile_inb (r t : ℕ) (hr : r < 16) (ht : t < 4) :
    ∀ a, (![0, r, 0, t, 0] : Fin 5 → ℕ) a + S1x1x64x1x64.size a ≤ S1x16x64x4x64.size a := fun a =>
  match a with
  | ⟨0, _⟩ => by show 0 + 1 ≤ 1; omega
  | ⟨1, _⟩ => by show r + 1 ≤ 16; omega
  | ⟨2, _⟩ => by show 0 + 64 ≤ 64; omega
  | ⟨3, _⟩ => by show t + 1 ≤ 4; omega
  | ⟨4, _⟩ => by show 0 + 64 ≤ 64; omega

/-- One store, with the rectangles' side conditions supplied from r < 16 and t < 4. -/
theorem piece_apply' (i : grid0.Coords) (x0 : Vec Ideal S1x4x16x16x64 .f32) (x1 : Vec Ideal S16x64 .f32)
    (x2 : Vec Ideal S4096x64 .f32) (r t : ℕ) (hr : r < 16) (ht : t < 4)
    (x : (Rect.unit (s := S1x16x64x4x64) ![0, r, 0, t, 0] S1x1x64x1x64.size (tile_inb r t hr ht)).shape.Idx) :
    tile (F := Ideal) (View.ld x0 (Rect.unit (s := S1x4x16x16x64) ![0, t, r, 0, 0] S1x1x1x16x64.size (slab_inb r t hr ht)))
        (View.ld x1 (Rect.unit (s := S16x64) ![0, 0] S16x64.size Facts₀.inb_S16x64_S16x64_0_0))
        (View.ld x2 (Rect.unit (s := S4096x64) (k0_off1 i (BitVec.ofNat 32 r)) S64x64.size (Facts₀.k0_off1_inb i ⟨r, hr⟩))) x
      = blockFn (i 1) x0 x1 x2 ((Rect.unit (s := S1x16x64x4x64) ![0, r, 0, t, 0] S1x1x64x1x64.size (tile_inb r t hr ht)).emb x) :=
  piece_apply i x0 x1 x2 r t hr ht _ _ _ _ x

/-- THE BLOCK AFTER THE BODY: the sixty-four tiles, each the block's own function under its rectangle, cover the block. -/
theorem out_eq (c : Dev nD) (i : grid0.Coords) (arg2 : Memref sig .tc .vmem S1x4x16x16x64 .f32) (harg2 : arg2.IsWhole)
    (arg3 : Memref sig .tc .vmem S16x64 .f32) (harg3 : arg3.IsWhole) (arg4 : Memref sig .tc .vmem S4096x64 .f32)
    (harg4 : arg4.IsWhole) (arg5 : Memref sig .tc .vmem S1x16x64x4x64 .f32) (harg5 : arg5.IsWhole)
    (x0 : Vec Ideal S1x4x16x16x64 .f32) (x1 : Vec Ideal S16x64 .f32) (x2 : Vec Ideal S4096x64 .f32) :
    out0_A_3 (F := Ideal) c i arg2 harg2 arg3 harg3 arg4 harg4 arg5 harg5 x0 x1 x2 = blockFn (i 1) x0 x1 x2 := by
  unfold out0_A_3
  rw [View.read_writes_junk_eq_canon]
  funext y
  refine View.canon_apply_of_pieces (blockFn (i 1) x0 x1 x2) _ ?_ y
    (cover0_A_3 c i arg2 harg2 arg3 harg3 arg4 harg4 arg5 harg5 x0 x1 x2 y)
  unfold kernelRun0_A
  dsimp only
  sl_unfold_run_names
  simp only [View.readAt_eq_ld, harg2.read_unread, harg3.read_unread, harg4.read_unread]
  repeat' (first
    | refine List.forall_mem_cons.2 ⟨?_, ?_⟩
    | (intro _ h; exact absurd h List.not_mem_nil))
  all_goals exact piece_apply' i x0 x1 x2 _ _ (by decide) (by decide)

end Cert.KernelIdeal.Block

end
-- ==== Proof.Spec.lean ====
/-
  The channel-embedding layer as one function of its three arrays.

  For an input x[b, t, h, w, c] (2 x 4 x 64 x 64 x 16), a channel table ce[c, d] (16 x 64) and a positional table
  pos[0, h, w, d] (1 x 64 x 64 x 64) the layer's result, laid out [b, h, w, t, d] (2 x 64 x 64 x 4 x 64), is

      out[b, h, w, t, d] = (sum over c of x[b, t, h, w, c] * ce[c, d]) + pos[0, h, w, d]

  on the extended reals: a contraction of the 16 channels against the table, a positional term that does not depend
  on b or t, and the time axis moved behind the two spatial axes.
-/
import Idealize.ShloMosaic.PureOps.Ideal
import Idealize.ShloMosaic.Lib.ValueIdx

noncomputable section

namespace Cert.Embed

open Idealize.ShloMosaic Idealize.ShloMosaic.ValueIdx

/-- The layer at the coordinates (b, h, w, t, d) of its result. -/
def embedAt (x : (⟨5, ![2, 4, 64, 64, 16]⟩ : Shape).Idx → EReal) (ce : (⟨2, ![16, 64]⟩ : Shape).Idx → EReal)
    (pos : (⟨4, ![1, 64, 64, 64]⟩ : Shape).Idx → EReal)
    (b : Fin 2) (h : Fin 64) (w : Fin 64) (t : Fin 4) (d : Fin 64) : EReal :=
  (∑ c : Fin 16, x (ix5 b t h w c) * ce (ix2 c d)) + pos (ix4 (0 : Fin 1) h w d)

/-- The layer's result array, index by index. -/
def embed (x : (⟨5, ![2, 4, 64, 64, 16]⟩ : Shape).Idx → EReal) (ce : (⟨2, ![16, 64]⟩ : Shape).Idx → EReal)
    (pos : (⟨4, ![1, 64, 64, 64]⟩ : Shape).Idx → EReal) : (⟨5, ![2, 64, 64, 4, 64]⟩ : Shape).Idx → EReal :=
  fun j => embedAt x ce pos (j 0) (j 1) (j 2) (j 3) (j 4)

/-- The result array at an index given by its coordinates. -/
theorem embed_ix5 (x : (⟨5, ![2, 4, 64, 64, 16]⟩ : Shape).Idx → EReal) (ce : (⟨2, ![16, 64]⟩ : Shape).Idx → EReal)
    (pos : (⟨4, ![1, 64, 64, 64]⟩ : Shape).Idx → EReal) (b : Fin 2) (h : Fin 64) (w : Fin 64) (t : Fin 4) (d : Fin 64) :
    embed x ce pos (ix5 b h w t d) = embedAt x ce pos b h w t d := rfl

/-- Two arrays of the result's shape that agree at every coordinate tuple are equal. -/
theorem ext_ix5 {α : Type} (f g : (⟨5, ![2, 64, 64, 4, 64]⟩ : Shape).Idx → α)
    (hfg : ∀ (b : Fin 2) (h : Fin 64) (w : Fin 64) (t : Fin 4) (d : Fin 64), f (ix5 b h w t d) = g (ix5 b h w t d)) :
    f = g := by
  funext j
  rw [eq_ix5 j]
  exact hfg _ _ _ _ _

end Cert.Embed

end
-- ==== Proof.KernelValue.lean ====
/-
  The kernel's result array as the layer's function of the three arguments.

  The grid has eight points (b', h'): a batch entry and a group of sixteen image rows. The point's input block is
  x^T[b', :, 16 h' .. 16 h' + 15, :, :] of the input with its last two axes exchanged, so its entry (0, t, r, c, w) is
  x[b', t, 16 h' + r, w, c]; the channel table is fetched whole; the positional table, flattened over the image, is
  fetched whole, and its row 1024 h' + 64 r + w is pos[0, 16 h' + r, w, :]. So the block the point leaves,
  (sum over c of x0[0, t, r, c, w] * x1[c, d]) + x2[1024 h' + 64 r + w, d] at (0, r, w, t, d), is the layer's result at
  (b', 16 h' + r, w, t, d): the block of the result array the point writes back. The eight blocks are disjoint and
  cover the result, the index (b, h, w, t, d) lying in the block of the point (b, h / 16).
-/
import proofs.«170922_g76424648065964_cont_9to1_m_590_9_alg».proof.Proof.KernelBlock
import proofs.«170922_g76424648065964_cont_9to1_m_590_9_alg».proof.Proof.Spec
import proofs.«170922_g76424648065964_cont_9to1_m_590_9_alg».proof.Proof.Gen.KernelIdeal.Value
import Idealize.ShloMosaic.Lib.Pipeline.Value
import Idealize.ShloMosaic.Lib.StableHlo.Run

set_option maxRecDepth 16384

noncomputable section

namespace Cert.KernelIdeal.EmbedValue

open Cert.KernelIdeal Cert.KernelIdeal.Gen Cert.KernelIdeal.Block Cert.Embed
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The input as the region finds it: the argument with its last two axes exchanged. -/
theorem V_swapped (c : Dev nD) :
    (V m c main_call0_v0 : S2x4x64x16x64.Idx → EReal)
      = transpose S2x4x64x16x64 [0, 1, 2, 4, 3] (m ((c : Thread nD τ).loc main_arg0))
          Facts₀.transposes_S2x4x64x64x16_S2x4x64x16x64_0_1_2_4_3 := by
  dsimp only [Gen.V, Gen.hostOps0]
  after_results
  rfl

/-- The positional table as the region finds it: the argument flattened over the image. -/
theorem V_flat (c : Dev nD) :
    (V m c main_call0_v1 : S4096x64.Idx → EReal)
      = shapeCast S4096x64 (m ((c : Thread nD τ).loc main_arg2)) Facts₀.shapeCasts_S1x64x64x64_S4096x64 := by
  dsimp only [Gen.V, Gen.hostOps0]
  after_results
  rfl

/-- The printed index maps over the eight grid points (b', h'): the input block sits at (b', 0, h', 0, 0), the two
    tables are fetched whole, the output block sits at (b', h', 0, 0, 0); b' is 0 or 1, h' is 0 to 3, and h' is the
    point's second coordinate. -/
theorem idx_facts : ∀ t : Fin cfg0.N,
    win0_0.index t (0 : Fin 5) = win0_3.index t (0 : Fin 5) ∧ win0_0.index t (1 : Fin 5) = 0
    ∧ win0_0.index t (2 : Fin 5) = win0_3.index t (1 : Fin 5) ∧ win0_0.index t (3 : Fin 5) = 0
    ∧ win0_0.index t (4 : Fin 5) = 0
    ∧ win0_1.index t (0 : Fin 2) = 0 ∧ win0_1.index t (1 : Fin 2) = 0
    ∧ win0_2.index t (0 : Fin 2) = 0 ∧ win0_2.index t (1 : Fin 2) = 0
    ∧ win0_3.index t (2 : Fin 5) = 0 ∧ win0_3.index t (3 : Fin 5) = 0 ∧ win0_3.index t (4 : Fin 5) = 0
    ∧ win0_3.index t (0 : Fin 5) ≤ 1 ∧ win0_3.index t (1 : Fin 5) ≤ 3
    ∧ (grid0.coords t (1 : Fin 2)).val = win0_3.index t (1 : Fin 5) :=
  (by decide +kernel : ∀ t : Fin grid0.N, _)

/-- WHAT POINT t WRITES BACK is block t of the layer's result. -/
theorem flushed_eq (c : Dev nD) (t : Fin cfg0.N) :
    (dats m 0 c).flushed 3 t
      = ((cfg0.win 3).blk t).view.read (Elt Ideal)
          (embed (m ((c : Thread nD τ).loc main_arg0)) (m ((c : Thread nD τ).loc main_arg1))
            (m ((c : Thread nD τ).loc main_arg2))) := by
  rw [Value.flushed3_A, out_eq]
  obtain ⟨e00, e01, e02, e03, e04, e10, e11, e20, e21, e32, e33, e34, b0, b1, eh⟩ := idx_facts t
  funext y
  show blockAt (grid0.coords t 1) (iblk m c 0 t) (iblk m c 1 t) (iblk m c 2 t) (y 1) (y 2) (y 3) (y 4)
    = embed (m ((c : Thread nD τ).loc main_arg0)) (m ((c : Thread nD τ).loc main_arg1))
        (m ((c : Thread nD τ).loc main_arg2)) (((cfg0.win 3).blk t).view.emb y)
  have hy0 : (y 0).val < 1 := (y 0).isLt
  have hy1 : (y 1).val < 16 := (y 1).isLt
  have hy2 : (y 2).val < 64 := (y 2).isLt
  have hy3 : (y 3).val < 4 := (y 3).isLt
  have hy4 : (y 4).val < 64 := (y 4).isLt
  unfold blockAt
  show _ = embedAt _ _ _ (((cfg0.win 3).blk t).view.emb y 0) (((cfg0.win 3).blk t).view.emb y 1)
    (((cfg0.win 3).blk t).view.emb y 2) (((cfg0.win 3).blk t).view.emb y 3) (((cfg0.win 3).blk t).view.emb y 4)
  unfold embedAt
  congr 1
  · refine Finset.sum_congr rfl fun cc _ => ?_
    congr 1
    · show V m c main_call0_v0 (((cfg0.win 0).blk t).view.emb (ix5 (0 : Fin 1) (y 3) (y 1) cc (y 2))) = _
      refine (congrFun (V_swapped m c) _).trans ?_
      refine transpose_apply _ _ _ _ _ (fun b => ?_)
      match b with
      | ⟨0, _⟩ =>
        show win0_3.index t (0 : Fin 5) * 1 + 1 * (y 0).val = win0_0.index t (0 : Fin 5) * 1 + 1 * 0
        omega
      | ⟨1, _⟩ =>
        show win0_3.index t (3 : Fin 5) * 4 + 1 * (y 3).val = win0_0.index t (1 : Fin 5) * 4 + 1 * (y 3).val
        omega
      | ⟨2, _⟩ =>
        show win0_3.index t (1 : Fin 5) * 16 + 1 * (y 1).val = win0_0.index t (2 : Fin 5) * 16 + 1 * (y 1).val
        omega
      | ⟨3, _⟩ =>
        show cc.val = win0_0.index t (3 : Fin 5) * 16 + 1 * cc.val
        omega
      | ⟨4, _⟩ =>
        show win0_3.index t (2 : Fin 5) * 64 + 1 * (y 2).val = win0_0.index t (4 : Fin 5) * 64 + 1 * (y 2).val
        omega
    · show V m c main_arg1 (((cfg0.win 1).blk t).view.emb (ix2 cc (y 4))) = _
      refine (congrFun (V_main_arg1 m c) _).trans ?_
      congr 1
      funext a; apply Fin.ext
      match a with
      | ⟨0, _⟩ =>
        show win0_1.index t (0 : Fin 2) * 16 + 1 * cc.val = cc.val
        omega
      | ⟨1, _⟩ =>
        show win0_1.index t (1 : Fin 2) * 64 + 1 * (y 4).val = win0_3.index t (4 : Fin 5) * 64 + 1 * (y 4).val
        omega
  · show V m c main_call0_v1 (((cfg0.win 2).blk t).view.emb _) = _
    refine (congrFun (V_flat m c) _).trans ?_
    refine shapeCast_apply _ _ _ _ ?_
    refine (Shape.rowMajor_val_four (d := ![1, 64, 64, 64]) _).trans ?_
    refine Eq.trans ?_ (Shape.rowMajor_val_two (d := ![4096, 64]) _).symm
    show ((0 * 64 + (win0_3.index t (1 : Fin 5) * 16 + 1 * (y 1).val)) * 64
          + (win0_3.index t (2 : Fin 5) * 64 + 1 * (y 2).val)) * 64
          + (win0_3.index t (4 : Fin 5) * 64 + 1 * (y 4).val)
        = (win0_2.index t (0 : Fin 2) * 4096
            + 1 * (1024 * (grid0.coords t (1 : Fin 2)).val + 64 * (y 1).val + (y 2).val)) * 64
          + (win0_2.index t (1 : Fin 2) * 64 + 1 * (y 4).val)
    omega

/-- An index of the result array is in point t's block iff each coordinate is in the block's range on its axis. -/
theorem mem_blk (t : Fin cfg0.N) (i : S2x64x64x4x64.Idx) :
    i ∈ ((cfg0.win 3).blk t).view.set ↔ ∀ a : Fin 5, win0_3.index t a * S1x16x64x4x64.size a ≤ (i a).val
      ∧ (i a).val < win0_3.index t a * S1x16x64x4x64.size a + S1x16x64x4x64.size a := by
  show i ∈ ((View.whole main_v0).slice (win0_3.rect t)).set ↔ _
  rw [View.set_slice_whole, Rect.mem_set_unit]
  exact Iff.rfl

/-- Every (batch entry, group of sixteen rows) is some grid point's output block. -/
theorem idx_onto : ∀ (q0 : Fin 2) (q1 : Fin 4), ∃ t : Fin cfg0.N, win0_3.index t = ![q0.val, q1.val, 0, 0, 0] :=
  (by decide +kernel : ∀ (q0 : Fin 2) (q1 : Fin 4), ∃ t : Fin grid0.N, win0_3.index t = ![q0.val, q1.val, 0, 0, 0])

/-- THE BLOCKS COVER THE RESULT: the index (b, h, w, t, d) lies in the block of the point (b, h / 16). -/
theorem cover (i : S2x64x64x4x64.Idx) :
    ∃ t : Fin cfg0.N, (cfg0.win 3).flush t = true ∧ i ∈ ((cfg0.win 3).blk t).view.set := by
  have h0 : (i 0).val < 2 := (i 0).isLt
  have h1 : (i 1).val < 64 := (i 1).isLt
  have h2 : (i 2).val < 64 := (i 2).isLt
  have h3 : (i 3).val < 4 := (i 3).isLt
  have h4 : (i 4).val < 64 := (i 4).isLt
  obtain ⟨t, ht⟩ := idx_onto ⟨(i 0).val, h0⟩ ⟨(i 1).val / 16, by omega⟩
  have q0 : win0_3.index t (0 : Fin 5) = (i 0).val := congrFun ht 0
  have q1 : win0_3.index t (1 : Fin 5) = (i 1).val / 16 := congrFun ht 1
  have q2 : win0_3.index t (2 : Fin 5) = 0 := congrFun ht 2
  have q3 : win0_3.index t (3 : Fin 5) = 0 := congrFun ht 3
  have q4 : win0_3.index t (4 : Fin 5) = 0 := congrFun ht 4
  refine ⟨t, flush0_3 t, ?_⟩
  rw [mem_blk]
  intro a
  match a with
  | ⟨0, _⟩ =>
    show win0_3.index t (0 : Fin 5) * 1 ≤ (i 0).val ∧ (i 0).val < win0_3.index t (0 : Fin 5) * 1 + 1
    omega
  | ⟨1, _⟩ =>
    show win0_3.index t (1 : Fin 5) * 16 ≤ (i 1).val ∧ (i 1).val < win0_3.index t (1 : Fin 5) * 16 + 16
    omega
  | ⟨2, _⟩ =>
    show win0_3.index t (2 : Fin 5) * 64 ≤ (i 2).val ∧ (i 2).val < win0_3.index t (2 : Fin 5) * 64 + 64
    omega
  | ⟨3, _⟩ =>
    show win0_3.index t (3 : Fin 5) * 4 ≤ (i 3).val ∧ (i 3).val < win0_3.index t (3 : Fin 5) * 4 + 4
    omega
  | ⟨4, _⟩ =>
    show win0_3.index t (4 : Fin 5) * 64 ≤ (i 4).val ∧ (i 4).val < win0_3.index t (4 : Fin 5) * 64 + 64
    omega

/-- THE RESULT ARRAY after the run is the layer's function of the three arguments. -/
theorem final (c : Dev nD) :
    (dats m 0 c).arrAt 3 cfg0.N
      = embed (m ((c : Thread nD τ).loc main_arg0)) (m ((c : Thread nD τ).loc main_arg1))
          (m ((c : Thread nD τ).loc main_arg2)) :=
  (dats m 0 c).arrAt_eq_of_cover 3 _ (fun t _ => flushed_eq m c t) cover

/-- The kernel's run: every weakly fair execution terminates with the result array at the layer's function of the
    arguments and the arguments unchanged. -/
theorem run : θ_run (defs (F := Ideal)) (onTc (τ := τ) (main (F := Ideal))) ⟨m, fun _ => 0, ρ⟩ fun r => ∀ c : Dev nD,
      r.2.mem ((c : Thread nD τ).loc main_v0)
        = embed (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.EmbedValue

end
-- ==== Proof.RefRun.lean ====
/-
  The reference program's run. @main is one straight line of thirty-five host operations once the two module-local
  functions (the row lookup and the three-way select it calls) are unfolded at their call sites over the calls' buffer
  records: an iota of sixteen 32-bit integers, the lookup's index normalisation, range mask and row gather, then the
  table reshaped and broadcast against the input, the product summed over the channel axis, the positional table
  broadcast and added, and the time axis moved behind the spatial axes. Every weakly fair execution terminates with
  the result buffer at the operations' composed term of the three arguments' launch contents and the arguments
  unchanged; the term is stated here for any float values.
-/
import proofs.«170922_g76424648065964_cont_9to1_m_590_9_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The sixteen row numbers `0 … 15`. -/
def rows : IVec S16 32 := iotaInDim S16 32 0

/-- The row numbers with a negative one moved up by sixteen: `where(i < 0, i + 16, i)`. -/
def idx : IVec S16 32 :=
  select (cmpi .slt rows (broadcastInDim S16 ![] bcast_S_S16 (constantI S_ 32 0#32)))
    (addi rows (broadcastInDim S16 ![] bcast_S_S16 (constantI S_ 32 16#32))) rows

/-- The same as a column of start indices. -/
def col : IVec S16x1 32 := broadcastInDim S16x1 ![0] bcast_S16_S16x1_0 idx

/-- Per row, whether its start index lies in `[0, 15]`: the conjunction over the column's one entry. -/
def mask : IVec S16 1 :=
  Host.reduce IntOp.andi
    (andi (cmpi .sge col (broadcastInDim S16x1 ![] bcast_S_S16x1 (constantI S_ 32 0#32)))
      (cmpi .sle col (broadcastInDim S16x1 ![0, 1] bcast_S1x1_S16x1_0_1
        (broadcastInDim S1x1 ![1] bcast_S1_S1x1_1 (constantI S1 32 15#32)))))
    (constantI S_ 1 1#1) reducesTo_S16x1_S16_d1 h_S_

/-- The table's rows at the start indices, a row whose index is out of range replaced by the fill value. -/
def taken (ce : FVec F S16x64 .f32) : FVec F S16x64 .f32 :=
  select (broadcastInDim S16x64 ![0] bcast_S16_S16x64_0 mask)
    (Host.gather gather_S16x64_S16x1_S16x64_1_0_n_n_0_1_164 ce col)
    (broadcastInDim S16x64 ![] bcast_S_S16x64 (constant S_ .f32 0x7FC00000#32))

/-- The products `x[b, t, h, w, c] * table[c, d]` over all six axes. -/
def prod (x : FVec F S2x4x64x64x16 .f32) (ce : FVec F S16x64 .f32) : FVec F S2x4x64x64x16x64 .f32 :=
  mulf
    (broadcastInDim S2x4x64x64x16x64 ![0, 1, 2, 3, 4, 5] bcast_S2x4x64x64x16x1_S2x4x64x64x16x64_0_1_2_3_4_5
      (broadcastInDim S2x4x64x64x16x1 ![0, 1, 2, 3, 4] bcast_S2x4x64x64x16_S2x4x64x64x16x1_0_1_2_3_4 x))
    (broadcastInDim S2x4x64x64x16x64 ![0, 1, 2, 3, 4, 5] bcast_S1x1x1x1x16x64_S2x4x64x64x16x64_0_1_2_3_4_5
      (shapeCast S1x1x1x1x16x64 (taken ce) shapeCasts_S16x64_S1x1x1x1x16x64))

/-- The positional table over the batch and time axes. -/
def posb (pos : FVec F S1x64x64x64 .f32) : FVec F S2x4x64x64x64 .f32 :=
  broadcastInDim S2x4x64x64x64 ![0, 1, 2, 3, 4] bcast_S1x1x64x64x64_S2x4x64x64x64_0_1_2_3_4
    (broadcastInDim S1x1x64x64x64 ![1, 2, 3, 4] bcast_S1x64x64x64_S1x1x64x64x64_1_2_3_4 pos)

/-- What @main computes of its three arguments' contents. -/
def out (x : FVec F S2x4x64x64x16 .f32) (ce : FVec F S16x64 .f32) (pos : FVec F S1x64x64x64 .f32) :
    FVec F S2x64x64x4x64 .f32 :=
  transpose S2x64x64x4x64 [0, 2, 3, 1, 4]
    (addf
      (Host.reduceAdd (prod x ce) (constant S_ .f32 0x00000000#32) reducesTo_S2x4x64x64x16x64_S2x4x64x64x64_d4 h_S_)
      (posb pos))
    transposes_S2x4x64x64x64_S2x64x64x4x64_0_2_3_1_4

/-! ## The operations -/

/-- @main's thirty-five operations in order, the calls unfolded: the iota; the lookup's twenty-three over its call's
    buffer record (the select of the function it calls seventh among them); @main's own eleven. -/
abbrev ops : List (HloOp τ sig (Elt F)) :=
  [ nullary main_v0 (iotaInDim S16 32 0),
    TRef.nullary main_call0.c (constantI S_ 32 0#32),
    TRef.unary main_call0.c main_call0.v0 (broadcastInDim S16 ![] bcast_S_S16),
    TRef.binary (.of main_v0) main_call0.v0 main_call0.v1 (cmpi .slt),
    TRef.nullary main_call0.c_0 (constantI S_ 32 16#32),
    TRef.unary main_call0.c_0 main_call0.v2 (broadcastInDim S16 ![] bcast_S_S16),
    TRef.binary (.of main_v0) main_call0.v2 main_call0.v3 addi,
    TRef.ternary main_call0.v1 main_call0.v3 (.of main_v0) main_call0.call0.v0 select,
    TRef.unary main_call0.call0.v0 main_call0.v5 (broadcastInDim S16x1 ![0] bcast_S16_S16x1_0),
    TRef.nullary main_call0.c_1 (constantI S1 32 15#32),
    TRef.nullary main_call0.c_2 (constantI S_ 32 0#32),
    TRef.unary main_call0.c_2 main_call0.v6 (broadcastInDim S16x1 ![] bcast_S_S16x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16x1 ![0, 1] bcast_S1x1_S16x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x1_S16_d1 h_S_),
    TRef.binary (.of main_arg1) main_call0.v5 main_call0.v13 (fun x i => Host.gather gather_S16x64_S16x1_S16x64_1_0_n_n_0_1_164 x i),
    TRef.unary main_call0.v12 main_call0.v14 (broadcastInDim S16x64 ![0] bcast_S16_S16x64_0),
    TRef.nullary main_call0.cst (constant S_ .f32 0x7FC00000#32),
    TRef.unary main_call0.cst main_call0.v15 (broadcastInDim S16x64 ![] bcast_S_S16x64),
    TRef.ternary main_call0.v14 main_call0.v13 main_call0.v15 main_call0.v16 select,
    reshape main_v1 main_v2 rfl shapeCasts_S16x64_S1x1x1x1x16x64,
    unary main_arg0 main_v3 (broadcastInDim S2x4x64x64x16x1 ![0, 1, 2, 3, 4] bcast_S2x4x64x64x16_S2x4x64x64x16x1_0_1_2_3_4 : (⟨S2x4x64x64x16, .f32⟩ : BufTy).Contents (Elt F) → (⟨S2x4x64x64x16x1, .f32⟩ : BufTy).Contents (Elt F)),
    unary main_v3 main_v4 (broadcastInDim S2x4x64x64x16x64 ![0, 1, 2, 3, 4, 5] bcast_S2x4x64x64x16x1_S2x4x64x64x16x64_0_1_2_3_4_5 : (⟨S2x4x64x64x16x1, .f32⟩ : BufTy).Contents (Elt F) → (⟨S2x4x64x64x16x64, .f32⟩ : BufTy).Contents (Elt F)),
    unary main_v2 main_v5 (broadcastInDim S2x4x64x64x16x64 ![0, 1, 2, 3, 4, 5] bcast_S1x1x1x1x16x64_S2x4x64x64x16x64_0_1_2_3_4_5 : (⟨S1x1x1x1x16x64, .f32⟩ : BufTy).Contents (Elt F) → (⟨S2x4x64x64x16x64, .f32⟩ : BufTy).Contents (Elt F)),
    binary main_v4 main_v5 main_v6 (mulf : (⟨S2x4x64x64x16x64, .f32⟩ : BufTy).Contents (Elt F) → (⟨S2x4x64x64x16x64, .f32⟩ : BufTy).Contents (Elt F) → (⟨S2x4x64x64x16x64, .f32⟩ : BufTy).Contents (Elt F)),
    nullary main_cst (constant S_ .f32 0x00000000#32),
    binary main_v6 main_cst main_v7 ((fun x v => Host.reduceAdd x v reducesTo_S2x4x64x64x16x64_S2x4x64x64x64_d4 h_S_) : (⟨S2x4x64x64x16x64, .f32⟩ : BufTy).Contents (Elt F) → (⟨S_, .f32⟩ : BufTy).Contents (Elt F) → (⟨S2x4x64x64x64, .f32⟩ : BufTy).Contents (Elt F)),
    unary main_arg2 main_v8 (broadcastInDim S1x1x64x64x64 ![1, 2, 3, 4] bcast_S1x64x64x64_S1x1x64x64x64_1_2_3_4 : (⟨S1x64x64x64, .f32⟩ : BufTy).Contents (Elt F) → (⟨S1x1x64x64x64, .f32⟩ : BufTy).Contents (Elt F)),
    unary main_v8 main_v9 (broadcastInDim S2x4x64x64x64 ![0, 1, 2, 3, 4] bcast_S1x1x64x64x64_S2x4x64x64x64_0_1_2_3_4 : (⟨S1x1x64x64x64, .f32⟩ : BufTy).Contents (Elt F) → (⟨S2x4x64x64x64, .f32⟩ : BufTy).Contents (Elt F)),
    binary main_v7 main_v9 main_v10 (addf : (⟨S2x4x64x64x64, .f32⟩ : BufTy).Contents (Elt F) → (⟨S2x4x64x64x64, .f32⟩ : BufTy).Contents (Elt F) → (⟨S2x4x64x64x64, .f32⟩ : BufTy).Contents (Elt F)),
    unary main_v10 main_v11 ((transpose S2x64x64x4x64 [0, 2, 3, 1, 4] · transposes_S2x4x64x64x64_S2x64x64x4x64_0_2_3_1_4) : (⟨S2x4x64x64x64, .f32⟩ : BufTy).Contents (Elt F) → (⟨S2x64x64x4x64, .f32⟩ : BufTy).Contents (Elt F)) ]

set_option maxRecDepth 2048 in
/-- @main is that straight line: the two functions' definitions unfolded at their calls and the records at their
    fields, both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., unary_bufs_sub .., unary_bufs_sub .., unary_bufs_sub .., binary_bufs_sub .., nullary_bufs_sub ..,
    binary_bufs_sub .., unary_bufs_sub .., unary_bufs_sub .., binary_bufs_sub .., unary_bufs_sub ..⟩

/-- Every buffer after the line: the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the composed term: each operation's result read at its own buffer is its function
    of what its operands' buffers hold, at any other buffer what was there; the typed references' transports are the
    identity at these literal references. -/
theorem out_eq (V : Valuation τ sig (Elt F)) :
    after ops V (main_v11 : DevRef τ sig)
      = out (V (main_arg0 : DevRef τ sig)) (V (main_arg1 : DevRef τ sig)) (V (main_arg2 : DevRef τ sig)) := by
  after_results_simp <;> rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of @main
    terminates with the result buffer at the composed term of the three arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (out_eq _), (h c main_arg0).trans (arg0_eq _),
      (h c main_arg1).trans (arg1_eq _), (h c main_arg2).trans (arg2_eq _)⟩)
    (run_main m ρ)

end Cert.ReferenceIdeal.RefRun

end
-- ==== Proof.LibGatherRows.lean ====
/-
  A gather of whole rows read at an index. For an operand [N, C] (or a flat operand [N]) and a column [R, 1] of start
  indices, the gather that collapses the row axis and keeps the columns reads, at (r, c), the operand's row at the start
  index idx[r, 0] taken as a signed integer and clamped into [0, N - 1], column c.
-/
import Idealize.ShloMosaic.PureOps.Ideal
import Idealize.ShloMosaic.Lib.ValueIdx

noncomputable section

namespace Idealize.ShloMosaic.GatherRows

open Idealize.ShloMosaic Idealize.ShloMosaic.ValueIdx

/-- A natural number clamped at `N - 1` is below a positive `N`. -/
theorem clamp_lt {N : Nat} (hN : 0 < N) (k : Nat) : min k (N - 1) < N := by omega

/-! ## Rows of a matrix at a column of start indices -/

section Rows
variable {α : Type}

/-- The dimension numbers of `x[idx[:, 0], :]` for an operand `[N, C]`, a column `[R, 1]` of start indices and a result
    `[R, C]`: the row axis collapsed and mapped by the start index, the column axis kept whole as the result's offset
    axis; their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The conditions hold only for an operand with at least one row: a slice of one row fits. -/
theorem rows_pos {N R C : Nat} (wf : GatherDims.WF ⟨2, ![N, C]⟩ ⟨2, ![R, 1]⟩ ⟨2, ![R, C]⟩ [1] [0] [] [0] [] 1 ![1, C]) :
    0 < N :=
  (rowDims N R C wf).slice_le 0

/-- THE ROW GATHER READ AT `(r, c)`: the operand's row at the start index `idx[r, 0]`, read signed and clamped into
    `[0, N − 1]`, at column `c`. -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), clamp_lt (rows_pos wf) _⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    simp only [Nat.add_zero, Nat.zero_add]
    rfl

end Rows

/-! ## A flat array at a column of start indices -/

section Flat
variable {α : Type}

/-- The dimension numbers of `x[idx[:, 0]]` for a flat operand `[N]`, a column `[R, 1]` of start indices and a result
    `[R]`: the operand's one axis collapsed and mapped by the start index, no offset axis; their conditions `wf` are
    decided on a program's literal shapes. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The conditions hold only for a non-empty operand: a slice of one element fits. -/
theorem flat_pos {N R : Nat} (wf : GatherDims.WF ⟨1, ![N]⟩ ⟨2, ![R, 1]⟩ ⟨1, ![R]⟩ [] [0] [] [0] [] 1 ![1]) : 0 < N :=
  (flatDims N R wf).slice_le 0

/-- THE FLAT GATHER READ AT `r`: the operand at the start index `idx[r, 0]`, read signed and clamped into
    `[0, N − 1]`. -/
theorem gather_flat_apply {N R w : Nat} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 ⟨min (idx (ix2 r 0)).toInt.toNat (N - 1), clamp_lt (flat_pos wf) _⟩) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Flat

/-! ## Two gathers in a row -/

section Compose
variable {α : Type}

/-- Rows of gathered rows are gathered rows: taking the rows of `x[zc[:, 0], :]` at the start indices `idx` is taking the
    rows of `x` at any column `zr` of start indices that reads, at every `r`, the column `zc` at `idx[r, 0]` read signed
    and clamped into `[0, N − 1]` (for instance an elementwise function of a flat array gathered at `idx`, when `zc` is
    the same function of the flat array). -/
theorem gather_rows_rows {M N R C w w' : Nat}
    (wf₁ : GatherDims.WF ⟨2, ![M, C]⟩ ⟨2, ![N, 1]⟩ ⟨2, ![N, C]⟩ [1] [0] [] [0] [] 1 ![1, C])
    (wf₂ : GatherDims.WF ⟨2, ![N, C]⟩ ⟨2, ![R, 1]⟩ ⟨2, ![R, C]⟩ [1] [0] [] [0] [] 1 ![1, C])
    (wf₃ : GatherDims.WF ⟨2, ![M, C]⟩ ⟨2, ![R, 1]⟩ ⟨2, ![R, C]⟩ [1] [0] [] [0] [] 1 ![1, C])
    (x : (⟨2, ![M, C]⟩ : Shape).Idx → α) (zc : IVec ⟨2, ![N, 1]⟩ w') (idx : IVec ⟨2, ![R, 1]⟩ w)
    (zr : IVec ⟨2, ![R, 1]⟩ w')
    (h : ∀ r : Fin R, zr (ix2 r 0) = zc (ix2 ⟨min (idx (ix2 r 0)).toInt.toNat (N - 1), clamp_lt (rows_pos wf₂) _⟩ 0)) :
    Host.gather (rowDims N R C wf₂) (Host.gather (rowDims M N C wf₁) x zc) idx
      = Host.gather (rowDims M R C wf₃) x zr := by
  funext i
  obtain ⟨r, c, rfl⟩ : ∃ (r : Fin R) (c : Fin C), i = ix2 r c := ⟨i 0, i 1, eq_ix2 i⟩
  rw [gather_rows_apply, gather_rows_apply, gather_rows_apply, h r]

end Compose

end Idealize.ShloMosaic.GatherRows

end
-- ==== Proof.RefTake.lean ====
/-
  The row lookup of the reference returns its table unchanged. The start indices are the row numbers 0 … 15 themselves:
  none is negative, so the normalisation `where(i < 0, i + 16, i)` keeps each; each lies in [0, 15], so the range mask is
  true on every row and the select keeps the gathered row, never the fill value; and the gather of row r at start index
  r, clamped into [0, 15], is row r. This holds for any float values: no float operation is evaluated.
-/
import proofs.«170922_g76424648065964_cont_9to1_m_590_9_alg».proof.Proof.RefRun
import proofs.«170922_g76424648065964_cont_9to1_m_590_9_alg».proof.Proof.LibGatherRows
import Idealize.ShloMosaic.Lib.IdealHost
import Idealize.ShloMosaic.Lib.Pipeline.Value
import Idealize.ShloMosaic.PureOps.Reduce

noncomputable section

namespace Cert.ReferenceIdeal.RefTake

open Cert.ReferenceIdeal Cert.ReferenceIdeal.Gen Cert.ReferenceIdeal.RefRun Idealize.ShloMosaic Idealize.ShloMosaic.ValueIdx
open Idealize.ShloMosaic.GatherRows

variable {F : FTy → Type} [FloatOps F]

/-! ## The sixteen words -/

/-- No row number is negative as a signed word. -/
theorem word_not_neg : ∀ r : Fin 16, IntOp.cmpi .slt (BitVec.ofNat 32 r.val) 0#32 = 0#1 := by decide

/-- Every row number lies in [0, 15] as a signed word. -/
theorem word_in_range : ∀ r : Fin 16,
    IntOp.andi (IntOp.cmpi .sge (BitVec.ofNat 32 r.val) 0#32) (IntOp.cmpi .sle (BitVec.ofNat 32 r.val) 15#32) = 1#1 := by decide

/-- A row number read signed and clamped into [0, 15] is itself. -/
theorem word_clamp : ∀ r : Fin 16, min (BitVec.ofNat 32 r.val).toInt.toNat (16 - 1) = r.val := by decide

/-! ## The start indices -/

theorem rows_apply (r : Fin 16) : rows (ix1 r) = BitVec.ofNat 32 r.val := rfl

/-- The normalised index of row r is r. -/
theorem idx_apply (r : Fin 16) : idx (ix1 r) = BitVec.ofNat 32 r.val := by
  unfold idx
  rw [select_apply]
  show Scalar.select (IntOp.cmpi .slt (rows (ix1 r)) (broadcastInDim S16 ![] bcast_S_S16 (constantI S_ 32 0#32) (ix1 r))) _ _ = _
  rw [broadcastInDim_scalar_apply, rows_apply]
  show Scalar.select (IntOp.cmpi .slt (BitVec.ofNat 32 r.val) 0#32) _ _ = _
  rw [word_not_neg r, select_zero]

/-- The column of start indices at row r is r. -/
theorem col_apply (r : Fin 16) : col (ix2 r (0 : Fin 1)) = BitVec.ofNat 32 r.val := by
  unfold col
  rw [broadcastInDim_apply ![0] bcast_S16_S16x1_0 idx (ix2 r (0 : Fin 1)) (ix1 r) (fun a => by
    match a with
    | ⟨0, _⟩ => rfl)]
  exact idx_apply r

/-! ## The range mask -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- Every row's start index is in range. -/
theorem mask_apply (j : S16.Idx) : mask j = 1#1 := by
  unfold mask
  rw [Host.reduce_eq_foldl]
  refine foldl_andi_one _ _ (fun i _ => ?_)
  show IntOp.andi (IntOp.cmpi .sge (col i) 0#32) (IntOp.cmpi .sle (col i) 15#32) = 1#1
  obtain ⟨r, z, rfl⟩ : ∃ (r : Fin 16) (z : Fin 1), i = ix2 r z := ⟨i 0, i 1, eq_ix2 i⟩
  obtain rfl : z = 0 := Subsingleton.elim _ _
  rw [col_apply]
  exact word_in_range r

/-! ## The lookup -/

/-- The looked-up table is the table. -/
theorem taken_eq (ce : FVec F S16x64 .f32) : taken ce = ce := by
  funext i
  obtain ⟨r, c, rfl⟩ : ∃ (r : Fin 16) (c : Fin 64), i = ix2 r c := ⟨i 0, i 1, eq_ix2 i⟩
  unfold taken
  rw [select_apply,
    broadcastInDim_apply ![0] bcast_S16_S16x64_0 mask (ix2 r c) (ix1 r) (fun a => by
      match a with
      | ⟨0, _⟩ => rfl),
    mask_apply, select_one]
  show Host.gather (rowDims 16 16 64 gather_S16x64_S16x1_S16x64_1_0_n_n_0_1_164_wf) ce col (ix2 r c) = _
  rw [gather_rows_apply]
  have hr : (⟨min (col (ix2 r (0 : Fin 1))).toInt.toNat (16 - 1),
      clamp_lt (rows_pos gather_S16x64_S16x1_S16x64_1_0_n_n_0_1_164_wf) _⟩ : Fin 16) = r :=
    Fin.ext (by show min (col (ix2 r (0 : Fin 1))).toInt.toNat (16 - 1) = r.val
                rw [col_apply]; exact word_clamp r)
  rw [hr]

end Cert.ReferenceIdeal.RefTake

end
-- ==== Proof.RefValue.lean ====
/-
  The reference's result at the ideal values is the layer's function of its three arrays.

  Read at the coordinates (b, h, w, t, d) of the result: the transpose reads the sum's array at (b, t, h, w, d); the sum
  there is the reduction over the channel axis plus the positional table's broadcast, which reads pos[0, h, w, d]; the
  reduction from the initial value zero is the sum over the sixteen channels c of the product array at
  (b, t, h, w, c, d); the product there is x[b, t, h, w, c], broadcast along d, times the looked-up table reshaped and
  broadcast, which reads table[c, d]; and the looked-up table is the table itself. That is the layer's
  (sum over c of x[b, t, h, w, c] * table[c, d]) + pos[0, h, w, d].
-/
import proofs.«170922_g76424648065964_cont_9to1_m_590_9_alg».proof.Proof.RefTake
import proofs.«170922_g76424648065964_cont_9to1_m_590_9_alg».proof.Proof.Spec
import Idealize.ShloMosaic.PureOps.Ideal.Laws
import Idealize.ShloMosaic.Lib.IdealHost
import Idealize.ShloMosaic.Lib.Pipeline.Value
import Idealize.ShloMosaic.Lib.ValueIdxRank6

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.TcCoe Idealize.SL.Sem

/-! ## The channel reduction's indices -/

/-- The reduction's shape relation in the form that names the inserted coordinate. -/
theorem reduces_d4 : S2x4x64x64x16x64.Reduces [4] S2x4x64x64x64 := by decide

/-- The source index over (b, t, h, w, d) with channel c inserted is (b, t, h, w, c, d). -/
theorem lift_ix5 (b : Fin 2) (t : Fin 4) (h w : Fin 64) (d : Fin 64) (c : Fin 16) :
    reduces_d4.lift (ix5 b t h w d) c = ix6 b t h w c d := by
  funext a
  refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

/-! ## The operands at an index -/

/-- The product array at (b, t, h, w, c, d) is x[b, t, h, w, c] times table[c, d]. -/
theorem prod_apply (x : FVec Ideal S2x4x64x64x16 .f32) (ce : FVec Ideal S16x64 .f32)
    (b : Fin 2) (t : Fin 4) (h w : Fin 64) (c : Fin 16) (d : Fin 64) :
    prod x ce (ix6 b t h w c d) = x (ix5 b t h w c) * ce (ix2 c d) := by
  unfold prod
  rw [mulf_apply, RefTake.taken_eq,
    broadcastInDim_apply ![0, 1, 2, 3, 4, 5] bcast_S2x4x64x64x16x1_S2x4x64x64x16x64_0_1_2_3_4_5 _ (ix6 b t h w c d)
      (ix6 b t h w c (0 : Fin 1)) (fun a => by
      match a with
      | ⟨0, _⟩ => rfl
      | ⟨1, _⟩ => rfl
      | ⟨2, _⟩ => rfl
      | ⟨3, _⟩ => rfl
      | ⟨4, _⟩ => rfl
      | ⟨5, _⟩ => rfl),
    broadcastInDim_apply ![0, 1, 2, 3, 4] bcast_S2x4x64x64x16_S2x4x64x64x16x1_0_1_2_3_4 x (ix6 b t h w c (0 : Fin 1))
      (ix5 b t h w c) (fun a => by
      match a with
      | ⟨0, _⟩ => rfl
      | ⟨1, _⟩ => rfl
      | ⟨2, _⟩ => rfl
      | ⟨3, _⟩ => rfl
      | ⟨4, _⟩ => rfl),
    broadcastInDim_apply ![0, 1, 2, 3, 4, 5] bcast_S1x1x1x1x16x64_S2x4x64x64x16x64_0_1_2_3_4_5 _ (ix6 b t h w c d)
      (ix6 (0 : Fin 1) (0 : Fin 1) (0 : Fin 1) (0 : Fin 1) c d) (fun a => by
      match a with
      | ⟨0, _⟩ => rfl
      | ⟨1, _⟩ => rfl
      | ⟨2, _⟩ => rfl
      | ⟨3, _⟩ => rfl
      | ⟨4, _⟩ => rfl
      | ⟨5, _⟩ => rfl),
    shapeCast_apply ce shapeCasts_S16x64_S1x1x1x1x16x64 (ix6 (0 : Fin 1) (0 : Fin 1) (0 : Fin 1) (0 : Fin 1) c d) (ix2 c d) (by
      rw [Shape.rowMajor_val_two, Shape.rowMajor_val_six]
      show c.val * 64 + d.val = ((((0 * 1 + 0) * 1 + 0) * 1 + 0) * 16 + c.val) * 64 + d.val
      omega)]

/-- The positional table's broadcast at (b, t, h, w, d) is pos[0, h, w, d]. -/
theorem posb_apply (pos : FVec Ideal S1x64x64x64 .f32) (b : Fin 2) (t : Fin 4) (h w d : Fin 64) :
    posb pos (ix5 b t h w d) = pos (ix4 (0 : Fin 1) h w d) := by
  unfold posb
  rw [broadcastInDim_apply ![0, 1, 2, 3, 4] bcast_S1x1x64x64x64_S2x4x64x64x64_0_1_2_3_4 _ (ix5 b t h w d)
      (ix5 (0 : Fin 1) (0 : Fin 1) h w d) (fun a => by
      match a with
      | ⟨0, _⟩ => rfl
      | ⟨1, _⟩ => rfl
      | ⟨2, _⟩ => rfl
      | ⟨3, _⟩ => rfl
      | ⟨4, _⟩ => rfl),
    broadcastInDim_apply ![1, 2, 3, 4] bcast_S1x64x64x64_S1x1x64x64x64_1_2_3_4 pos (ix5 (0 : Fin 1) (0 : Fin 1) h w d)
      (ix4 (0 : Fin 1) h w d) (fun a => by
      match a with
      | ⟨0, _⟩ => rfl
      | ⟨1, _⟩ => rfl
      | ⟨2, _⟩ => rfl
      | ⟨3, _⟩ => rfl)]

/-! ## The result -/

/-- The composed term of the reference's run, at the ideal values, is the layer's function. -/
theorem out_eq (x : FVec Ideal S2x4x64x64x16 .f32) (ce : FVec Ideal S16x64 .f32) (pos : FVec Ideal S1x64x64x64 .f32) :
    out x ce pos = Cert.Embed.embed x ce pos := by
  refine Cert.Embed.ext_ix5 _ _ (fun b h w t d => ?_)
  rw [Cert.Embed.embed_ix5]
  unfold out Cert.Embed.embedAt
  rw [transpose_apply [0, 2, 3, 1, 4] _ transposes_S2x4x64x64x64_S2x64x64x4x64_0_2_3_1_4 (ix5 b h w t d) (ix5 b t h w d) (fun a => by
      match a with
      | ⟨0, _⟩ => rfl
      | ⟨1, _⟩ => rfl
      | ⟨2, _⟩ => rfl
      | ⟨3, _⟩ => rfl
      | ⟨4, _⟩ => rfl),
    addf_apply, posb_apply, hostReduceAdd_apply, Ideal.hostReduceAdd_single _ reduces_d4]
  rw [constant_apply, Ideal.ofBits_zero_f32, zero_add]
  congr 1
  refine Finset.sum_congr rfl (fun c _ => ?_)
  exact (congrArg (prod x ce) (lift_ix5 b t h w d c)).trans (prod_apply x ce b t h w c d)

/-- At the ideal values, on every device, from any memory with zero counters: every weakly fair execution of the
    reference terminates with its result buffer at the layer's function of the three arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Embed.embed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_eq _ _ _), (h c).2⟩) (RefRun.run (F := Ideal) m ρ)

end Cert.ReferenceIdeal.RefValue

end
-- ==== Proof.lean ====
/-
  The channel-embedding layer: the kernel against its reference, over the extended reals.

  Both programs compute, for an input x[b, t, h, w, c], a channel table ce[c, d] and a positional table pos[0, h, w, d],

      out[b, h, w, t, d] = (sum over c of x[b, t, h, w, c] * ce[c, d]) + pos[0, h, w, d].

  The reference looks the table's rows up at the indices 0 .. 15 in order (the lookup is the identity), multiplies the
  input, given a trailing unit axis, with the table, sums over the channel axis from zero, adds the positional table and
  moves the time axis behind the two spatial axes. The kernel exchanges the input's last two axes, flattens the
  positional table over the image, and walks a grid of (batch entry, group of sixteen image rows); at a point it
  contracts, for each of the sixteen rows and each of the four time steps, the channel axis of a 16 x 64 slab of the
  input against the channel axis of the table into a zero accumulator, adds the row's 64 positional rows and stores
  the 64 x 64 result into the slot of its time step. A contraction into zero is the plain sum of the products, the
  reference's sum from zero likewise, so the two sides are the same sum term by term: no law beyond zero_add is used
  and the finiteness of the inputs is never opened.

  Proof/Spec.lean states the layer's function; Proof/KernelTile.lean reads one stored tile at an entry,
  Proof/KernelBlock.lean the block one grid point leaves, Proof/KernelValue.lean the kernel's result array;
  Proof/RefRun.lean, Proof/RefTake.lean and Proof/RefValue.lean read the reference's run. The idealization rewrote no
  operation, so the kernel's idealized program is its own text read on the extended reals.
-/
import proofs.«170922_g76424648065964_cont_9to1_m_590_9_alg».proof.Defs
import proofs.«170922_g76424648065964_cont_9to1_m_590_9_alg».proof.Proof.Gen.Kernel
import proofs.«170922_g76424648065964_cont_9to1_m_590_9_alg».proof.Proof.Gen.Kernel.Skeleton
import proofs.«170922_g76424648065964_cont_9to1_m_590_9_alg».proof.Proof.Gen.Kernel.Launch
import proofs.«170922_g76424648065964_cont_9to1_m_590_9_alg».proof.Proof.Gen.Kernel.Points
import proofs.«170922_g76424648065964_cont_9to1_m_590_9_alg».proof.Proof.Gen.Kernel.Frame
import proofs.«170922_g76424648065964_cont_9to1_m_590_9_alg».proof.Proof.Gen.KernelIdeal
import proofs.«170922_g76424648065964_cont_9to1_m_590_9_alg».proof.Proof.Gen.KernelIdeal.Skeleton
import proofs.«170922_g76424648065964_cont_9to1_m_590_9_alg».proof.Proof.Gen.KernelIdeal.Launch
import proofs.«170922_g76424648065964_cont_9to1_m_590_9_alg».proof.Proof.Gen.KernelIdeal.Points
import proofs.«170922_g76424648065964_cont_9to1_m_590_9_alg».proof.Proof.Gen.KernelIdeal.Frame
import proofs.«170922_g76424648065964_cont_9to1_m_590_9_alg».proof.Proof.Gen.KernelIdeal.Value
import proofs.«170922_g76424648065964_cont_9to1_m_590_9_alg».proof.Proof.Gen.ReferenceIdeal
import proofs.«170922_g76424648065964_cont_9to1_m_590_9_alg».proof.Proof.Gen.Pre_finite_inputs
import proofs.«170922_g76424648065964_cont_9to1_m_590_9_alg».proof.Proof.KernelValue
import proofs.«170922_g76424648065964_cont_9to1_m_590_9_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The kernel read on the extended reals runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both programs end with the layer's function of the arguments, which agree. -/
theorem algebraic : Cert.algebraic_KernelIdeal_ReferenceIdeal := by
  intro m ρ m' ρ' _ hagree
  refine ⟨fun c => Cert.Embed.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.EmbedValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
